-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x3072 : Shape := ⟨3, ![16, 512, 3072]⟩
abbrev S16x256x30 : Shape := ⟨3, ![16, 256, 30]⟩
abbrev S16x512x10 : Shape := ⟨3, ![16, 512, 10]⟩
abbrev S300x3072 : Shape := ⟨2, ![300, 3072]⟩
abbrev S300 : Shape := ⟨1, ![300]⟩
abbrev S1 : Shape := ⟨1, ![1]⟩
abbrev S256x300 : Shape := ⟨2, ![256, 300]⟩
abbrev S256 : Shape := ⟨1, ![256]⟩
abbrev S1x256 : Shape := ⟨2, ![1, 256]⟩
abbrev S_ : Shape := ⟨0, ![]⟩

class Facts : Prop where
  bcast_S_S16x512x3072 : S_.BroadcastsInDim S16x512x3072 (![] : Fin 0 → Fin S16x512x3072.rank)
  reducesTo_S16x512x3072_S_d0_1_2 : S16x512x3072.ReducesTo [0, 1, 2] S_
  h_S_ : 0 < S_.numel
  bcast_S_S300x3072 : S_.BroadcastsInDim S300x3072 (![] : Fin 0 → Fin S300x3072.rank)
  reducesTo_S300x3072_S_d0_1 : S300x3072.ReducesTo [0, 1] S_
  bcast_S_S300 : S_.BroadcastsInDim S300 (![] : Fin 0 → Fin S300.rank)
  reducesTo_S300_S_d0 : S300.ReducesTo [0] S_
  bcast_S_S1 : S_.BroadcastsInDim S1 (![] : Fin 0 → Fin S1.rank)
  reducesTo_S1_S_d0 : S1.ReducesTo [0] S_
  bcast_S_S256x300 : S_.BroadcastsInDim S256x300 (![] : Fin 0 → Fin S256x300.rank)
  reducesTo_S256x300_S_d0_1 : S256x300.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S16x256x30 : S_.BroadcastsInDim S16x256x30 (![] : Fin 0 → Fin S16x256x30.rank)
  reducesTo_S16x256x30_S_d0_1_2 : S16x256x30.ReducesTo [0, 1, 2] S_

variable [Facts]

def fn_part2 {F : FTy → Type} [FloatOps F] (main_arg1 : IVec S16x256x30 32) (main_arg11 : FVec F S1 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S16x256x30 32 := broadcastInDim S16x256x30 ![] bcast_S_S16x256x30 main_c_14
  let main_v40 : IVec S16x256x30 1 := cmpi .sge main_arg1 main_v39
  let main_c_15 : IVec S_ 1 := constantI S_ 1 1#1
  let main_v41 : IVec S_ 1 := (fun x v => Host.reduce IntOp.andi x v reducesTo_S16x256x30_S_d0_1_2 h_S_) main_v40 main_c_15
  let main_v42 : IVec S_ 1 := andi main_v38 main_v41
  let main_c_16 : IVec S_ 32 := constantI S_ 32 512#32
  let main_v43 : IVec S16x256x30 32 := broadcastInDim S16x256x30 ![] bcast_S_S16x256x30 main_c_16
  let main_v44 : IVec S16x256x30 1 := cmpi .slt main_arg1 main_v43
  let main_c_17 : IVec S_ 1 := constantI S_ 1 1#1
  let main_v45 : IVec S_ 1 := (fun x v => Host.reduce IntOp.andi x v reducesTo_S16x256x30_S_d0_1_2 h_S_) main_v44 main_c_17
  let main_v46 : IVec S_ 1 := andi main_v42 main_v45
  main_v46

def fn_part1 {F : FTy → Type} [FloatOps F] (main_arg1 : IVec S16x256x30 32) (main_arg8 : FVec F S256x300 .f32) (main_arg9 : FVec F S256 .f32) (main_arg10 : FVec F S1x256 .f32) (main_arg11 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x300 .f32 := Host.absf main_arg8
  let main_cst_6 : FVec F S_ .f32 := constant S_ .f32 0x7F800000#32
  let main_v20 : FVec F S256x300 .f32 := broadcastInDim S256x300 ![] bcast_S_S256x300 main_cst_6
  let main_v21 : IVec S256x300 1 := cmpf .olt main_v19 main_v20
  let main_c_7 : IVec S_ 1 := constantI S_ 1 1#1
  let main_v22 : IVec S_ 1 := (fun x v => Host.reduce IntOp.andi x v reducesTo_S256x300_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x256 .f32 := Host.absf main_arg10
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg1 main_arg11 main_v33

def fn {F : FTy → Type} [FloatOps F] (main_arg0 : FVec F S16x512x3072 .f32) (main_arg1 : IVec S16x256x30 32) (main_arg2 : IVec S16x256x30 32) (main_arg3 : IVec S16x512x10 32) (main_arg4 : IVec S16x512x10 32) (main_arg5 : FVec F S300x3072 .f32) (main_arg6 : FVec F S300 .f32) (main_arg7 : FVec F S1 .f32) (main_arg8 : FVec F S256x300 .f32) (main_arg9 : FVec F S256 .f32) (main_arg10 : FVec F S1x256 .f32) (main_arg11 : FVec F S1 .f32) : IVec S_ 1 :=
  let main_v0 : FVec F S16x512x3072 .f32 := Host.absf main_arg0
  let main_cst : FVec F S_ .f32 := constant S_ .f32 0x7F800000#32
  let main_v1 : FVec F S16x512x3072 .f32 := broadcastInDim S16x512x3072 ![] bcast_S_S16x512x3072 main_cst
  let main_v2 : IVec S16x512x3072 1 := cmpf .olt main_v0 main_v1
  let main_c : IVec S_ 1 := constantI S_ 1 1#1
  let main_v3 : IVec S_ 1 := (fun x v => Host.reduce IntOp.andi x v reducesTo_S16x512x3072_S_d0_1_2 h_S_) main_v2 main_c
  let main_v4 : FVec F S300x3072 .f32 := Host.absf main_arg5
  let main_cst_0 : FVec F S_ .f32 := constant S_ .f32 0x7F800000#32
  let main_v5 : FVec F S300x3072 .f32 := broadcastInDim S300x3072 ![] bcast_S_S300x3072 main_cst_0
  let main_v6 : IVec S300x3072 1 := cmpf .olt main_v4 main_v5
  let main_c_1 : IVec S_ 1 := constantI S_ 1 1#1
  let main_v7 : IVec S_ 1 := (fun x v => Host.reduce IntOp.andi x v reducesTo_S300x3072_S_d0_1 h_S_) main_v6 main_c_1
  let main_v8 : IVec S_ 1 := andi main_v3 main_v7
  let main_v9 : FVec F S300 .f32 := Host.absf main_arg6
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S1 .f32 := Host.absf main_arg7
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg8 main_arg9 main_arg10 main_arg11 main_v13 main_v16
-- ==== Kernel.lean ====
abbrev S16x512x3072 : Shape := ⟨3, ![16, 512, 3072]⟩
abbrev S16x256x30 : Shape := ⟨3, ![16, 256, 30]⟩
abbrev S16x512x10 : Shape := ⟨3, ![16, 512, 10]⟩
abbrev S300x3072 : Shape := ⟨2, ![300, 3072]⟩
abbrev S300 : Shape := ⟨1, ![300]⟩
abbrev S1 : Shape := ⟨1, ![1]⟩
abbrev S256x300 : Shape := ⟨2, ![256, 300]⟩
abbrev S256 : Shape := ⟨1, ![256]⟩
abbrev S1x256 : Shape := ⟨2, ![1, 256]⟩
abbrev S3072x300 : Shape := ⟨2, ![3072, 300]⟩
abbrev S300x256 : Shape := ⟨2, ![300, 256]⟩
abbrev S256x1 : Shape := ⟨2, ![256, 1]⟩
abbrev S16x1x256 : Shape := ⟨3, ![16, 1, 256]⟩
abbrev S1x512x3072 : Shape := ⟨3, ![1, 512, 3072]⟩
abbrev S1x256x30 : Shape := ⟨3, ![1, 256, 30]⟩
abbrev S1x1x256 : Shape := ⟨3, ![1, 1, 256]⟩
abbrev S512x3072 : Shape := ⟨2, ![512, 3072]⟩
abbrev S512x300 : Shape := ⟨2, ![512, 300]⟩
abbrev S1x300 : Shape := ⟨2, ![1, 300]⟩
abbrev S256x30 : Shape := ⟨2, ![256, 30]⟩
abbrev S256x512 : Shape := ⟨2, ![256, 512]⟩
abbrev S256x256 : Shape := ⟨2, ![256, 256]⟩
abbrev S1x1 : Shape := ⟨2, ![1, 1]⟩
abbrev S16x256 : Shape := ⟨2, ![16, 256]⟩

abbrev nBuf : Space → Nat
  | .hbm => 20
  | .vmem => 15
  | .smem => 0
  | _ => 0

abbrev bufTy : (tb : Table) → Fin (tcTables nBuf tb) → BufTy
  | .hbm, ⟨0, _⟩ => ⟨S16x512x3072, .f32⟩
  | .hbm, ⟨1, _⟩ => ⟨S16x256x30, .i32⟩
  | .hbm, ⟨2, _⟩ => ⟨S16x256x30, .i32⟩
  | .hbm, ⟨3, _⟩ => ⟨S16x512x10, .i32⟩
  | .hbm, ⟨4, _⟩ => ⟨S16x512x10, .i32⟩
  | .hbm, ⟨5, _⟩ => ⟨S300x3072, .f32⟩
  | .hbm, ⟨6, _⟩ => ⟨S300, .f32⟩
  | .hbm, ⟨7, _⟩ => ⟨S1, .f32⟩
  | .hbm, ⟨8, _⟩ => ⟨S256x300, .f32⟩
  | .hbm, ⟨9, _⟩ => ⟨S256, .f32⟩
  | .hbm, ⟨10, _⟩ => ⟨S1x256, .f32⟩
  | .hbm, ⟨11, _⟩ => ⟨S1, .f32⟩
  | .hbm, ⟨12, _⟩ => ⟨S3072x300, .f32⟩
  | .hbm, ⟨13, _⟩ => ⟨S3072x300, .bf16⟩
  | .hbm, ⟨14, _⟩ => ⟨S300x256, .f32⟩
  | .hbm, ⟨15, _⟩ => ⟨S300x256, .bf16⟩
  | .hbm, ⟨16, _⟩ => ⟨S256x1, .f32⟩
  | .hbm, ⟨17, _⟩ => ⟨S256x1, .bf16⟩
  | .hbm, ⟨18, _⟩ => ⟨S16x1x256, .f32⟩
  | .hbm, ⟨19, _⟩ => ⟨S16x256, .f32⟩
  | .local _ .vmem, ⟨0, _⟩ => ⟨S1x512x3072, .f32⟩
  | .local _ .vmem, ⟨1, _⟩ => ⟨S1x512x3072, .f32⟩
  | .local _ .vmem, ⟨2, _⟩ => ⟨S1x256x30, .i32⟩
  | .local _ .vmem, ⟨3, _⟩ => ⟨S1x256x30, .i32⟩
  | .local _ .vmem, ⟨4, _⟩ => ⟨S1x256x30, .i32⟩
  | .local _ .vmem, ⟨5, _⟩ => ⟨S1x256x30, .i32⟩
  | .local _ .vmem, ⟨6, _⟩ => ⟨S3072x300, .bf16⟩
  | .local _ .vmem, ⟨7, _⟩ => ⟨S300, .f32⟩
  | .local _ .vmem, ⟨8, _⟩ => ⟨S1, .f32⟩
  | .local _ .vmem, ⟨9, _⟩ => ⟨S300x256, .bf16⟩
  | .local _ .vmem, ⟨10, _⟩ => ⟨S256, .f32⟩
  | .local _ .vmem, ⟨11, _⟩ => ⟨S256x1, .bf16⟩
  | .local _ .vmem, ⟨12, _⟩ => ⟨S1, .f32⟩
  | .local _ .vmem, ⟨13, _⟩ => ⟨S1x1x256, .f32⟩
  | .local _ .vmem, ⟨14, _⟩ => ⟨S1x1x256, .f32⟩
  | _, _ => ⟨S16x512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x30 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x30 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S300x3072_S3072x300_1_0 : S300x3072.Transposes [1, 0] S3072x300
  bitsLt_bf16_f32 : FTy.bits .bf16 < FTy.bits .f32
  transposes_S256x300_S300x256_1_0 : S256x300.Transposes [1, 0] S300x256
  transposes_S1x256_S256x1_1_0 : S1x256.Transposes [1, 0] S256x1
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  inb_S3072x300_S3072x300_0_0 : ∀ a, (![0, 0] : Fin 2 → Nat) a + S3072x300.size a ≤ S3072x300.size a
  h_S3072x300 : 0 < S3072x300.numel
  shapeCasts_S3072x300_S3072x300 : S3072x300.ShapeCasts S3072x300
  inb_S300_S300_0 : ∀ a, (![0] : Fin 1 → Nat) a + S300.size a ≤ S300.size a
  h_S300 : 0 < S300.numel
  shapeCasts_S300_S1x300 : S300.ShapeCasts S1x300
  broadcasts_S1x300_S512x300 : S1x300.Broadcasts S512x300
  inb_S1_S1_0 : ∀ a, (![0] : Fin 1 → Nat) a + S1.size a ≤ S1.size a
  h_S1 : 0 < S1.numel
  inpos_S1_p0 : ∀ a, (![0] : Fin 1 → Nat) a < S1.size a
  inb_S1x256x30_S1x256x30_0_0_0 : ∀ a, (![0, 0, 0] : Fin 3 → Nat) a + S1x256x30.size a ≤ S1x256x30.size a
  h_S1x256x30 : 0 < S1x256x30.numel
  shapeCasts_S1x256x30_S256x30 : S1x256x30.ShapeCasts S256x30
  iota_S256x512_d1_w32 : S256x512.Iotas .tc 32 [1]
  slices_S256x30_o0_0_S256x1 : S256x30.Slices ![0, 0] S256x1
  broadcasts_S256x1_S256x512 : S256x1.Broadcasts S256x512
  natLt_1_32 : 1 < 32
  slices_S256x30_o0_1_S256x1 : S256x30.Slices ![0, 1] S256x1
  slices_S256x30_o0_2_S256x1 : S256x30.Slices ![0, 2] S256x1
  slices_S256x30_o0_3_S256x1 : S256x30.Slices ![0, 3] S256x1
  slices_S256x30_o0_4_S256x1 : S256x30.Slices ![0, 4] S256x1
  slices_S256x30_o0_5_S256x1 : S256x30.Slices ![0, 5] S256x1
  slices_S256x30_o0_6_S256x1 : S256x30.Slices ![0, 6] S256x1
  slices_S256x30_o0_7_S256x1 : S256x30.Slices ![0, 7] S256x1
  slices_S256x30_o0_8_S256x1 : S256x30.Slices ![0, 8] S256x1
  slices_S256x30_o0_9_S256x1 : S256x30.Slices ![0, 9] S256x1
  slices_S256x30_o0_10_S256x1 : S256x30.Slices ![0, 10] S256x1
  slices_S256x30_o0_11_S256x1 : S256x30.Slices ![0, 11] S256x1
  slices_S256x30_o0_12_S256x1 : S256x30.Slices ![0, 12] S256x1
  slices_S256x30_o0_13_S256x1 : S256x30.Slices ![0, 13] S256x1
  slices_S256x30_o0_14_S256x1 : S256x30.Slices ![0, 14] S256x1
  slices_S256x30_o0_15_S256x1 : S256x30.Slices ![0, 15] S256x1
  slices_S256x30_o0_16_S256x1 : S256x30.Slices ![0, 16] S256x1
  slices_S256x30_o0_17_S256x1 : S256x30.Slices ![0, 17] S256x1
  slices_S256x30_o0_18_S256x1 : S256x30.Slices ![0, 18] S256x1
  slices_S256x30_o0_19_S256x1 : S256x30.Slices ![0, 19] S256x1
  slices_S256x30_o0_20_S256x1 : S256x30.Slices ![0, 20] S256x1
  slices_S256x30_o0_21_S256x1 : S256x30.Slices ![0, 21] S256x1
  slices_S256x30_o0_22_S256x1 : S256x30.Slices ![0, 22] S256x1
  slices_S256x30_o0_23_S256x1 : S256x30.Slices ![0, 23] S256x1
  slices_S256x30_o0_24_S256x1 : S256x30.Slices ![0, 24] S256x1
  slices_S256x30_o0_25_S256x1 : S256x30.Slices ![0, 25] S256x1
  slices_S256x30_o0_26_S256x1 : S256x30.Slices ![0, 26] S256x1
  slices_S256x30_o0_27_S256x1 : S256x30.Slices ![0, 27] S256x1
  slices_S256x30_o0_28_S256x1 : S256x30.Slices ![0, 28] S256x1
  slices_S256x30_o0_29_S256x1 : S256x30.Slices ![0, 29] S256x1
  reduces_S256x30_S256 : S256x30.Reduces [1] S256
  shapeCasts_S256_S256x1 : S256.ShapeCasts S256x1
  broadcasts_S256x1_S256x300 : S256x1.Broadcasts S256x300
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S1_S1x1 : S1.ShapeCasts S1x1
  broadcasts_S1x1_S256x1 : S1x1.Broadcasts S256x1
  shapeCasts_S256x1_S256 : S256x1.ShapeCasts S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S16x1x256_S16x256 : S16x1x256.ShapeCasts S16x256
  dot_S512x3072_S3072x300_S512x300_1_0_0_1_n_n_wf : DotDims.WF S512x3072 S3072x300 S512x300 [1] [0] [0] [1] [] []
  dot_S256x512_S512x300_S256x300_1_0_0_1_n_n_wf : DotDims.WF S256x512 S512x300 S256x300 [1] [0] [0] [1] [] []
  dot_S256x300_S300x256_S256x256_1_0_0_1_n_n_wf : DotDims.WF S256x300 S300x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3072.size a ≤ S16x512x3072.size a
  hwx0_0 : ∀ i : grid0.Coords, EltTy.bits .f32 = 32 ∨ (Rect.block (s := S16x512x3072) S1x512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x30.size a ≤ S16x256x30.size a
  hwx0_1 : ∀ i : grid0.Coords, EltTy.bits .i32 = 32 ∨ (Rect.block (s := S16x256x30) S1x256x30.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x30.size a ≤ S16x256x30.size a
  hwx0_2 : ∀ i : grid0.Coords, EltTy.bits .i32 = 32 ∨ (Rect.block (s := S16x256x30) S1x256x30.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x300.size a ≤ S3072x300.size a
  hwx0_3 : ∀ i : grid0.Coords, EltTy.bits .bf16 = 32 ∨ (Rect.block (s := S3072x300) S3072x300.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300x256.size a ≤ S300x256.size a
  hwx0_6 : ∀ i : grid0.Coords, EltTy.bits .bf16 = 32 ∨ (Rect.block (s := S300x256) S300x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .bf16 = 32 ∨ (Rect.block (s := S256x1) S256x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256.size a ≤ S16x1x256.size a
  hwx0_10 : ∀ i : grid0.Coords, EltTy.bits .f32 = 32 ∨ (Rect.block (s := S16x1x256) S1x1x256.size (cc0_transform_10 i) (hinb0_10 i)).WholeWords (EltTy.packing .f32)

variable [Facts₀]

def dot_S512x3072_S3072x300_S512x300_1_0_0_1_n_n : DotDims S512x3072 S3072x300 S512x300 where
  lhsContracting := [1]
  rhsContracting := [0]
  lhsNonContracting := [0]
  rhsNonContracting := [1]
  lhsBatch := []
  rhsBatch := []
  wf := dot_S512x3072_S3072x300_S512x300_1_0_0_1_n_n_wf
def dot_S256x512_S512x300_S256x300_1_0_0_1_n_n : DotDims S256x512 S512x300 S256x300 where
  lhsContracting := [1]
  rhsContracting := [0]
  lhsNonContracting := [0]
  rhsNonContracting := [1]
  lhsBatch := []
  rhsBatch := []
  wf := dot_S256x512_S512x300_S256x300_1_0_0_1_n_n_wf
def dot_S256x300_S300x256_S256x256_1_0_0_1_n_n : DotDims S256x300 S300x256 S256x256 where
  lhsContracting := [1]
  rhsContracting := [0]
  lhsNonContracting := [0]
  rhsNonContracting := [1]
  lhsBatch := []
  rhsBatch := []
  wf := dot_S256x300_S300x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S1x512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x30.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3072x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S300x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x1x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x512x3072 : Shape := ⟨3, ![16, 512, 3072]⟩
abbrev S16x256x30 : Shape := ⟨3, ![16, 256, 30]⟩
abbrev S16x512x10 : Shape := ⟨3, ![16, 512, 10]⟩
abbrev S300x3072 : Shape := ⟨2, ![300, 3072]⟩
abbrev S300 : Shape := ⟨1, ![300]⟩
abbrev S1 : Shape := ⟨1, ![1]⟩
abbrev S256x300 : Shape := ⟨2, ![256, 300]⟩
abbrev S256 : Shape := ⟨1, ![256]⟩
abbrev S1x256 : Shape := ⟨2, ![1, 256]⟩
abbrev S16x512x300 : Shape := ⟨3, ![16, 512, 300]⟩
abbrev S1x1x300 : Shape := ⟨3, ![1, 1, 300]⟩
abbrev S_ : Shape := ⟨0, ![]⟩
abbrev S16x7680 : Shape := ⟨2, ![16, 7680]⟩
abbrev S16x7680x1 : Shape := ⟨3, ![16, 7680, 1]⟩
abbrev S1x1x1 : Shape := ⟨3, ![1, 1, 1]⟩
abbrev S16x7680x300 : Shape := ⟨3, ![16, 7680, 300]⟩
abbrev S16x256x30x300 : Shape := ⟨4, ![16, 256, 30, 300]⟩
abbrev S16x256x30x1 : Shape := ⟨4, ![16, 256, 30, 1]⟩
abbrev S16x256x300 : Shape := ⟨3, ![16, 256, 300]⟩
abbrev S16x256x1 : Shape := ⟨3, ![16, 256, 1]⟩
abbrev S16x5120 : Shape := ⟨2, ![16, 5120]⟩
abbrev S16x5120x1 : Shape := ⟨3, ![16, 5120, 1]⟩
abbrev S16x5120x300 : Shape := ⟨3, ![16, 5120, 300]⟩
abbrev S16x512x10x300 : Shape := ⟨4, ![16, 512, 10, 300]⟩
abbrev S16x512x10x1 : Shape := ⟨4, ![16, 512, 10, 1]⟩
abbrev S16x512x1 : Shape := ⟨3, ![16, 512, 1]⟩
abbrev S16x256x256 : Shape := ⟨3, ![16, 256, 256]⟩
abbrev S1x1x256 : Shape := ⟨3, ![1, 1, 256]⟩
abbrev S16x256 : Shape := ⟨2, ![16, 256]⟩

abbrev nBuf : Space → Nat
  | .hbm => 111
  | .vmem => 0
  | .smem => 0
  | _ => 0

abbrev bufTy : (tb : Table) → Fin (tcTables nBuf tb) → BufTy
  | .hbm, ⟨0, _⟩ => ⟨S16x512x3072, .f32⟩
  | .hbm, ⟨1, _⟩ => ⟨S16x256x30, .i32⟩
  | .hbm, ⟨2, _⟩ => ⟨S16x256x30, .i32⟩
  | .hbm, ⟨3, _⟩ => ⟨S16x512x10, .i32⟩
  | .hbm, ⟨4, _⟩ => ⟨S16x512x10, .i32⟩
  | .hbm, ⟨5, _⟩ => ⟨S300x3072, .f32⟩
  | .hbm, ⟨6, _⟩ => ⟨S300, .f32⟩
  | .hbm, ⟨7, _⟩ => ⟨S1, .f32⟩
  | .hbm, ⟨8, _⟩ => ⟨S256x300, .f32⟩
  | .hbm, ⟨9, _⟩ => ⟨S256, .f32⟩
  | .hbm, ⟨10, _⟩ => ⟨S1x256, .f32⟩
  | .hbm, ⟨11, _⟩ => ⟨S1, .f32⟩
  | .hbm, ⟨12, _⟩ => ⟨S16x512x300, .f32⟩
  | .hbm, ⟨13, _⟩ => ⟨S1x1x300, .f32⟩
  | .hbm, ⟨14, _⟩ => ⟨S16x512x300, .f32⟩
  | .hbm, ⟨15, _⟩ => ⟨S16x512x300, .f32⟩
  | .hbm, ⟨16, _⟩ => ⟨S_, .f32⟩
  | .hbm, ⟨17, _⟩ => ⟨S16x512x300, .f32⟩
  | .hbm, ⟨18, _⟩ => ⟨S16x512x300, .i1⟩
  | .hbm, ⟨19, _⟩ => ⟨S_, .f32⟩
  | .hbm, ⟨20, _⟩ => ⟨S16x512x300, .f32⟩
  | .hbm, ⟨21, _⟩ => ⟨S16x512x300, .f32⟩
  | .hbm, ⟨22, _⟩ => ⟨S16x512x300, .f32⟩
  | .hbm, ⟨23, _⟩ => ⟨S16x7680, .i32⟩
  | .hbm, ⟨24, _⟩ => ⟨S16x7680x1, .i32⟩
  | .hbm, ⟨25, _⟩ => ⟨S_, .i32⟩
  | .hbm, ⟨26, _⟩ => ⟨S16x7680x1, .i32⟩
  | .hbm, ⟨27, _⟩ => ⟨S16x7680x1, .i1⟩
  | .hbm, ⟨28, _⟩ => ⟨S_, .i32⟩
  | .hbm, ⟨29, _⟩ => ⟨S16x7680x1, .i32⟩
  | .hbm, ⟨30, _⟩ => ⟨S16x7680x1, .i32⟩
  | .hbm, ⟨31, _⟩ => ⟨S16x7680x1, .i32⟩
  | .hbm, ⟨32, _⟩ => ⟨S1, .i32⟩
  | .hbm, ⟨33, _⟩ => ⟨S_, .i32⟩
  | .hbm, ⟨34, _⟩ => ⟨S16x7680x1, .i32⟩
  | .hbm, ⟨35, _⟩ => ⟨S16x7680x1, .i1⟩
  | .hbm, ⟨36, _⟩ => ⟨S1x1x1, .i32⟩
  | .hbm, ⟨37, _⟩ => ⟨S16x7680x1, .i32⟩
  | .hbm, ⟨38, _⟩ => ⟨S16x7680x1, .i1⟩
  | .hbm, ⟨39, _⟩ => ⟨S16x7680x1, .i1⟩
  | .hbm, ⟨40, _⟩ => ⟨S_, .i1⟩
  | .hbm, ⟨41, _⟩ => ⟨S16x7680, .i1⟩
  | .hbm, ⟨42, _⟩ => ⟨S16x7680x300, .f32⟩
  | .hbm, ⟨43, _⟩ => ⟨S16x7680x300, .i1⟩
  | .hbm, ⟨44, _⟩ => ⟨S_, .f32⟩
  | .hbm, ⟨45, _⟩ => ⟨S16x7680x300, .f32⟩
  | .hbm, ⟨46, _⟩ => ⟨S16x7680x300, .f32⟩
  | .hbm, ⟨47, _⟩ => ⟨S16x256x30x300, .f32⟩
  | .hbm, ⟨48, _⟩ => ⟨S16x256x30, .f32⟩
  | .hbm, ⟨49, _⟩ => ⟨S16x256x30x1, .f32⟩
  | .hbm, ⟨50, _⟩ => ⟨S16x256x30x300, .f32⟩
  | .hbm, ⟨51, _⟩ => ⟨S16x256x30x300, .f32⟩
  | .hbm, ⟨52, _⟩ => ⟨S_, .f32⟩
  | .hbm, ⟨53, _⟩ => ⟨S16x256x300, .f32⟩
  | .hbm, ⟨54, _⟩ => ⟨S_, .f32⟩
  | .hbm, ⟨55, _⟩ => ⟨S16x256x1, .f32⟩
  | .hbm, ⟨56, _⟩ => ⟨S_, .f32⟩
  | .hbm, ⟨57, _⟩ => ⟨S16x256x1, .f32⟩
  | .hbm, ⟨58, _⟩ => ⟨S16x256x1, .f32⟩
  | .hbm, ⟨59, _⟩ => ⟨S16x256x300, .f32⟩
  | .hbm, ⟨60, _⟩ => ⟨S16x256x300, .f32⟩
  | .hbm, ⟨61, _⟩ => ⟨S16x5120, .i32⟩
  | .hbm, ⟨62, _⟩ => ⟨S16x5120x1, .i32⟩
  | .hbm, ⟨63, _⟩ => ⟨S_, .i32⟩
  | .hbm, ⟨64, _⟩ => ⟨S16x5120x1, .i32⟩
  | .hbm, ⟨65, _⟩ => ⟨S16x5120x1, .i1⟩
  | .hbm, ⟨66, _⟩ => ⟨S_, .i32⟩
  | .hbm, ⟨67, _⟩ => ⟨S16x5120x1, .i32⟩
  | .hbm, ⟨68, _⟩ => ⟨S16x5120x1, .i32⟩
  | .hbm, ⟨69, _⟩ => ⟨S16x5120x1, .i32⟩
  | .hbm, ⟨70, _⟩ => ⟨S1, .i32⟩
  | .hbm, ⟨71, _⟩ => ⟨S_, .i32⟩
  | .hbm, ⟨72, _⟩ => ⟨S16x5120x1, .i32⟩
  | .hbm, ⟨73, _⟩ => ⟨S16x5120x1, .i1⟩
  | .hbm, ⟨74, _⟩ => ⟨S1x1x1, .i32⟩
  | .hbm, ⟨75, _⟩ => ⟨S16x5120x1, .i32⟩
  | .hbm, ⟨76, _⟩ => ⟨S16x5120x1, .i1⟩
  | .hbm, ⟨77, _⟩ => ⟨S16x5120x1, .i1⟩
  | .hbm, ⟨78, _⟩ => ⟨S_, .i1⟩
  | .hbm, ⟨79, _⟩ => ⟨S16x5120, .i1⟩
  | .hbm, ⟨80, _⟩ => ⟨S16x5120x300, .f32⟩
  | .hbm, ⟨81, _⟩ => ⟨S16x5120x300, .i1⟩
  | .hbm, ⟨82, _⟩ => ⟨S_, .f32⟩
  | .hbm, ⟨83, _⟩ => ⟨S16x5120x300, .f32⟩
  | .hbm, ⟨84, _⟩ => ⟨S16x5120x300, .f32⟩
  | .hbm, ⟨85, _⟩ => ⟨S16x512x10x300, .f32⟩
  | .hbm, ⟨86, _⟩ => ⟨S16x512x10, .f32⟩
  | .hbm, ⟨87, _⟩ => ⟨S16x512x10x1, .f32⟩
  | .hbm, ⟨88, _⟩ => ⟨S16x512x10x300, .f32⟩
  | .hbm, ⟨89, _⟩ => ⟨S16x512x10x300, .f32⟩
  | .hbm, ⟨90, _⟩ => ⟨S_, .f32⟩
  | .hbm, ⟨91, _⟩ => ⟨S16x512x300, .f32⟩
  | .hbm, ⟨92, _⟩ => ⟨S_, .f32⟩
  | .hbm, ⟨93, _⟩ => ⟨S16x512x1, .f32⟩
  | .hbm, ⟨94, _⟩ => ⟨S_, .f32⟩
  | .hbm, ⟨95, _⟩ => ⟨S16x512x1, .f32⟩
  | .hbm, ⟨96, _⟩ => ⟨S16x512x1, .f32⟩
  | .hbm, ⟨97, _⟩ => ⟨S16x512x300, .f32⟩
  | .hbm, ⟨98, _⟩ => ⟨S16x512x300, .f32⟩
  | .hbm, ⟨99, _⟩ => ⟨S16x256x256, .f32⟩
  | .hbm, ⟨100, _⟩ => ⟨S1x1x256, .f32⟩
  | .hbm, ⟨101, _⟩ => ⟨S16x256x256, .f32⟩
  | .hbm, ⟨102, _⟩ => ⟨S16x256x256, .f32⟩
  | .hbm, ⟨103, _⟩ => ⟨S_, .f32⟩
  | .hbm, ⟨104, _⟩ => ⟨S16x256x256, .f32⟩
  | .hbm, ⟨105, _⟩ => ⟨S16x256x256, .f32⟩
  | .hbm, ⟨106, _⟩ => ⟨S16x256x1, .f32⟩
  | .hbm, ⟨107, _⟩ => ⟨S1x1x1, .f32⟩
  | .hbm, ⟨108, _⟩ => ⟨S16x256x1, .f32⟩
  | .hbm, ⟨109, _⟩ => ⟨S16x256x1, .f32⟩
  | .hbm, ⟨110, _⟩ => ⟨S16x256, .f32⟩
  | _, _ => ⟨S16x512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_c_2 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_c_3 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_0 : Ref sig .tc := ⟨.hbm, 52, rfl⟩
abbrev main_v18 : Ref sig .tc := ⟨.hbm, 53, rfl⟩
abbrev main_cst_1 : Ref sig .tc := ⟨.hbm, 54, rfl⟩
abbrev main_v19 : Ref sig .tc := ⟨.hbm, 55, rfl⟩
abbrev main_cst_2 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_c_2 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_c_3 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_cst_3 : Ref sig .tc := ⟨.hbm, 90, rfl⟩
abbrev main_v32 : Ref sig .tc := ⟨.hbm, 91, rfl⟩
abbrev main_cst_4 : Ref sig .tc := ⟨.hbm, 92, rfl⟩
abbrev main_v33 : Ref sig .tc := ⟨.hbm, 93, rfl⟩
abbrev main_cst_5 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_call3_cst : Ref sig .tc := ⟨.hbm, 103, rfl⟩
abbrev main_call3_v0 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩

abbrev nD : Nat := 1
abbrev τ : Topo := Topo.v7x

variable {F : FTy → Type} [FloatOps F]

class Facts₀ : Prop where
  bcast_S300_S1x1x300_2 : S300.BroadcastsInDim S1x1x300 (![2] : Fin 1 → Fin S1x1x300.rank)
  bcast_S1x1x300_S16x512x300_0_1_2 : S1x1x300.BroadcastsInDim S16x512x300 (![0, 1, 2] : Fin 3 → Fin S16x512x300.rank)
  bcast_S_S16x512x300 : S_.BroadcastsInDim S16x512x300 (![] : Fin 0 → Fin S16x512x300.rank)
  shapeCasts_S1_S_ : S1.ShapeCasts S_
  shapeCasts_S16x256x30_S16x7680 : S16x256x30.ShapeCasts S16x7680
  bcast_S16x7680_S16x7680x1_0_1 : S16x7680.BroadcastsInDim S16x7680x1 (![0, 1] : Fin 2 → Fin S16x7680x1.rank)
  bcast_S_S16x7680x1 : S_.BroadcastsInDim S16x7680x1 (![] : Fin 0 → Fin S16x7680x1.rank)
  bcast_S1_S1x1x1_2 : S1.BroadcastsInDim S1x1x1 (![2] : Fin 1 → Fin S1x1x1.rank)
  bcast_S1x1x1_S16x7680x1_0_1_2 : S1x1x1.BroadcastsInDim S16x7680x1 (![0, 1, 2] : Fin 3 → Fin S16x7680x1.rank)
  reducesTo_S16x7680x1_S16x7680_d2 : S16x7680x1.ReducesTo [2] S16x7680
  h_S_ : 0 < S_.numel
  bcast_S16x7680_S16x7680x300_0_1 : S16x7680.BroadcastsInDim S16x7680x300 (![0, 1] : Fin 2 → Fin S16x7680x300.rank)
  bcast_S_S16x7680x300 : S_.BroadcastsInDim S16x7680x300 (![] : Fin 0 → Fin S16x7680x300.rank)
  shapeCasts_S16x7680x300_S16x256x30x300 : S16x7680x300.ShapeCasts S16x256x30x300
  bcast_S16x256x30_S16x256x30x1_0_1_2 : S16x256x30.BroadcastsInDim S16x256x30x1 (![0, 1, 2] : Fin 3 → Fin S16x256x30x1.rank)
  bcast_S16x256x30x1_S16x256x30x300_0_1_2_3 : S16x256x30x1.BroadcastsInDim S16x256x30x300 (![0, 1, 2, 3] : Fin 4 → Fin S16x256x30x300.rank)
  reducesTo_S16x256x30x300_S16x256x300_d2 : S16x256x30x300.ReducesTo [2] S16x256x300
  reducesTo_S16x256x30x1_S16x256x1_d2 : S16x256x30x1.ReducesTo [2] S16x256x1
  bcast_S_S16x256x1 : S_.BroadcastsInDim S16x256x1 (![] : Fin 0 → Fin S16x256x1.rank)
  bcast_S16x256x1_S16x256x300_0_1_2 : S16x256x1.BroadcastsInDim S16x256x300 (![0, 1, 2] : Fin 3 → Fin S16x256x300.rank)
  shapeCasts_S16x512x10_S16x5120 : S16x512x10.ShapeCasts S16x5120
  bcast_S16x5120_S16x5120x1_0_1 : S16x5120.BroadcastsInDim S16x5120x1 (![0, 1] : Fin 2 → Fin S16x5120x1.rank)
  bcast_S_S16x5120x1 : S_.BroadcastsInDim S16x5120x1 (![] : Fin 0 → Fin S16x5120x1.rank)
  bcast_S1x1x1_S16x5120x1_0_1_2 : S1x1x1.BroadcastsInDim S16x5120x1 (![0, 1, 2] : Fin 3 → Fin S16x5120x1.rank)
  reducesTo_S16x5120x1_S16x5120_d2 : S16x5120x1.ReducesTo [2] S16x5120
  bcast_S16x5120_S16x5120x300_0_1 : S16x5120.BroadcastsInDim S16x5120x300 (![0, 1] : Fin 2 → Fin S16x5120x300.rank)
  bcast_S_S16x5120x300 : S_.BroadcastsInDim S16x5120x300 (![] : Fin 0 → Fin S16x5120x300.rank)
  shapeCasts_S16x5120x300_S16x512x10x300 : S16x5120x300.ShapeCasts S16x512x10x300
  bcast_S16x512x10_S16x512x10x1_0_1_2 : S16x512x10.BroadcastsInDim S16x512x10x1 (![0, 1, 2] : Fin 3 → Fin S16x512x10x1.rank)
  bcast_S16x512x10x1_S16x512x10x300_0_1_2_3 : S16x512x10x1.BroadcastsInDim S16x512x10x300 (![0, 1, 2, 3] : Fin 4 → Fin S16x512x10x300.rank)
  reducesTo_S16x512x10x300_S16x512x300_d2 : S16x512x10x300.ReducesTo [2] S16x512x300
  reducesTo_S16x512x10x1_S16x512x1_d2 : S16x512x10x1.ReducesTo [2] S16x512x1
  bcast_S_S16x512x1 : S_.BroadcastsInDim S16x512x1 (![] : Fin 0 → Fin S16x512x1.rank)
  bcast_S16x512x1_S16x512x300_0_1_2 : S16x512x1.BroadcastsInDim S16x512x300 (![0, 1, 2] : Fin 3 → Fin S16x512x300.rank)
  bcast_S256_S1x1x256_2 : S256.BroadcastsInDim S1x1x256 (![2] : Fin 1 → Fin S1x1x256.rank)
  bcast_S1x1x256_S16x256x256_0_1_2 : S1x1x256.BroadcastsInDim S16x256x256 (![0, 1, 2] : Fin 3 → Fin S16x256x256.rank)
  bcast_S_S16x256x256 : S_.BroadcastsInDim S16x256x256 (![] : Fin 0 → Fin S16x256x256.rank)
  bcast_S1x1x1_S16x256x1_0_1_2 : S1x1x1.BroadcastsInDim S16x256x1 (![0, 1, 2] : Fin 3 → Fin S16x256x1.rank)
  shapeCasts_S16x256x1_S16x256 : S16x256x1.ShapeCasts S16x256
  dot_S16x512x3072_S300x3072_S16x512x300_2_1_01_0_n_n_wf : DotDims.WF S16x512x3072 S300x3072 S16x512x300 [2] [1] [0, 1] [0] [] []
  gather_S16x512x300_S16x7680x1_S16x7680x300_2_1_0_0_1_2_11300_wf : GatherDims.WF S16x512x300 S16x7680x1 S16x7680x300 [2] [1] [0] [1] [0] 2 ![1, 1, 300]
  gather_S16x512x300_S16x5120x1_S16x5120x300_2_1_0_0_1_2_11300_wf : GatherDims.WF S16x512x300 S16x5120x1 S16x5120x300 [2] [1] [0] [1] [0] 2 ![1, 1, 300]
  dot_S16x256x300_S256x300_S16x256x256_2_1_01_0_n_n_wf : DotDims.WF S16x256x300 S256x300 S16x256x256 [2] [1] [0, 1] [0] [] []
  dot_S16x256x256_S1x256_S16x256x1_2_1_01_0_n_n_wf : DotDims.WF S16x256x256 S1x256 S16x256x1 [2] [1] [0, 1] [0] [] []

variable [Facts₀]

def dot_S16x512x3072_S300x3072_S16x512x300_2_1_01_0_n_n : DotDims S16x512x3072 S300x3072 S16x512x300 where
  lhsContracting := [2]
  rhsContracting := [1]
  lhsNonContracting := [0, 1]
  rhsNonContracting := [0]
  lhsBatch := []
  rhsBatch := []
  wf := dot_S16x512x3072_S300x3072_S16x512x300_2_1_01_0_n_n_wf
def gather_S16x512x300_S16x7680x1_S16x7680x300_2_1_0_0_1_2_11300 : GatherDims S16x512x300 S16x7680x1 S16x7680x300 where
  offsetDims := [2]
  collapsedSliceDims := [1]
  operandBatchingDims := [0]
  startIndicesBatchingDims := [0]
  startIndexMap := [1]
  indexVectorDim := 2
  sliceSizes := ![1, 1, 300]
  wf := gather_S16x512x300_S16x7680x1_S16x7680x300_2_1_0_0_1_2_11300_wf
def gather_S16x512x300_S16x5120x1_S16x5120x300_2_1_0_0_1_2_11300 : GatherDims S16x512x300 S16x5120x1 S16x5120x300 where
  offsetDims := [2]
  collapsedSliceDims := [1]
  operandBatchingDims := [0]
  startIndicesBatchingDims := [0]
  startIndexMap := [1]
  indexVectorDim := 2
  sliceSizes := ![1, 1, 300]
  wf := gather_S16x512x300_S16x5120x1_S16x5120x300_2_1_0_0_1_2_11300_wf
def dot_S16x256x300_S256x300_S16x256x256_2_1_01_0_n_n : DotDims S16x256x300 S256x300 S16x256x256 where
  lhsContracting := [2]
  rhsContracting := [1]
  lhsNonContracting := [0, 1]
  rhsNonContracting := [0]
  lhsBatch := []
  rhsBatch := []
  wf := dot_S16x256x300_S256x300_S16x256x256_2_1_01_0_n_n_wf
def dot_S16x256x256_S1x256_S16x256x1_2_1_01_0_n_n : DotDims S16x256x256 S1x256 S16x256x1 where
  lhsContracting := [2]
  rhsContracting := [1]
  lhsNonContracting := [0, 1]
  rhsNonContracting := [0]
  lhsBatch := []
  rhsBatch := []
  wf := dot_S16x256x256_S1x256_S16x256x1_2_1_01_0_n_n_wf

class Facts : Prop extends Facts₀ where

variable [Facts]
-- ==== Proof.Spec.lean ====
/-
  Masked-mean pooling of projected token embeddings over each node's word span, followed by a two-layer scoring
  head: the one function of the argument arrays that both programs compute, written for ONE batch row.

  A row has 512 tokens with 3072 features each. Every token is projected to 300 coordinates by an affine map and
  passed through a leaky unit (x where x > 0, α·x elsewhere). A node names 30 token positions, each with an integer
  weight; its pooled vector is the weighted sum of the named tokens' projections divided by max(total weight, 1).
  The head is an affine map to 256 coordinates, the positive part, and an affine map to one number.

  The pooled sum can be arranged in two ways. Reading it word by word, it is the sum over the 30 words w of
  token(position w) · weight w. Reading it token by token, it is the sum over the 512 tokens l of
  (the sum over words w of weight w · [word w names l]) · token l. When every quantity is a real number and every
  word names a position below 512, the two arrangements agree: exactly one token l is named by word w, products
  distribute over finite sums of reals, and the double sum may be taken in either order.
-/
import Idealize.ShloMosaic.PureOps.Ideal
import Idealize.ShloMosaic.Lib.ValueIdx

noncomputable section

namespace Cert.NodePool

open Idealize.ShloMosaic

/-- The leaky unit: x where x > 0, α · x elsewhere. -/
def leaky (α x : EReal) : EReal :=
  Scalar.select (Ideal.cmp .ogt x (Ideal.ofBits .f32 0x00000000#32)) x (α * x)

/-- An integer word as a weight. -/
def weight (v : BitVec 32) : EReal := ((v.toInt : ℝ) : EReal)

/-- Whether an index word names token l, as 1 or 0: the word compared with l, the bit widened and converted. -/
def names (v : BitVec 32) (l : Fin 512) : EReal :=
  ((((IntOp.cmpi .eq v (BitVec.ofNat 32 l.val)).setWidth 32).toInt : ℝ) : EReal)

/-- The token position an index word names: the word read signed and clamped into [0, 511]. For a word already in
    that range it is the word's value. -/
def position (v : BitVec 32) : Fin 512 := ⟨min v.toInt.toNat 511, by omega⟩

section Row

variable (a : Fin 512 → Fin 3072 → EReal) (wb : Fin 300 → Fin 3072 → EReal) (bb : Fin 300 → EReal) (α : EReal)
  (ix : Fin 256 → Fin 30 → BitVec 32) (wt : Fin 256 → Fin 30 → EReal)

/-- Token l's projection, coordinate e. -/
def token (l : Fin 512) (e : Fin 300) : EReal := leaky α ((∑ k : Fin 3072, a l k * wb e k) + bb e)

/-- A node's divisor: its total weight, at least 1. -/
def divisor (n : Fin 256) : EReal := max (∑ w : Fin 30, wt n w) (Ideal.ofBits .f32 0x3F800000#32)

/-- The pooled sum word by word. -/
def pooledByWord (n : Fin 256) (e : Fin 300) : EReal :=
  ∑ w : Fin 30, token a wb bb α (position (ix n w)) e * wt n w

/-- One word's part of a node's share of token l: its weight where the word names l, nothing elsewhere. Indexed by a
    natural number so that a running sum over the first k words is a sum over `Finset.range k`. -/
def sharePart (n : Fin 256) (l : Fin 512) (w : ℕ) : EReal :=
  if h : w < 30 then wt n ⟨w, h⟩ * names (ix n ⟨w, h⟩) l else 0

/-- How much of token l a node takes: the total weight of its words that name l. -/
def share (n : Fin 256) (l : Fin 512) : EReal := ∑ w : Fin 30, wt n w * names (ix n w) l

/-- The pooled sum token by token. -/
def pooledByToken (n : Fin 256) (e : Fin 300) : EReal :=
  ∑ l : Fin 512, share ix wt n l * token a wb bb α l e

end Row

section Head

variable (pooled : Fin 256 → Fin 300 → EReal) (wt : Fin 256 → Fin 30 → EReal)
  (w1 : Fin 256 → Fin 300 → EReal) (c1 : Fin 256 → EReal) (w2 : Fin 256 → EReal) (c2 : EReal)

/-- The node's mean vector. -/
def mean (n : Fin 256) (e : Fin 300) : EReal := Ideal.div (pooled n e) (divisor wt n)

/-- The hidden layer: the positive part of an affine map of the mean. -/
def hidden (n : Fin 256) (h : Fin 256) : EReal :=
  max ((∑ e : Fin 300, mean pooled wt n e * w1 h e) + c1 h) (Ideal.ofBits .f32 0x00000000#32)

/-- The node's score. -/
def score (n : Fin 256) : EReal := (∑ h : Fin 256, hidden pooled wt w1 c1 n h * w2 h) + c2

end Head

/-! ## The two arrangements of the pooled sum agree on real data with positions in range -/

theorem weight_eq (v : BitVec 32) : weight v = ((v.toInt : ℝ) : EReal) := rfl

/-- The 1-or-0 reading of `names`. -/
theorem names_eq (v : BitVec 32) (l : Fin 512) : names v l = if v = BitVec.ofNat 32 l.val then 1 else 0 := by
  unfold names
  by_cases h : v = BitVec.ofNat 32 l.val
  · rw [if_pos h]
    have : IntOp.cmpi .eq v (BitVec.ofNat 32 l.val) = 1#1 := by
      unfold IntOp.cmpi; simp [h]
    rw [this]; norm_num
  · rw [if_neg h]
    have : IntOp.cmpi .eq v (BitVec.ofNat 32 l.val) = 0#1 := by
      unfold IntOp.cmpi
      rw [show (v == BitVec.ofNat 32 l.val) = false from beq_eq_false_iff_ne.mpr h]
      rfl
    rw [this]; norm_num

/-- A word in [0, 512) names exactly its own position. -/
theorem names_iff_position (v : BitVec 32) (h0 : 0 ≤ v.toInt) (h1 : v.toInt < 512) (l : Fin 512) :
    v = BitVec.ofNat 32 l.val ↔ l = position v := by
  have hl := l.isLt
  have hvN : v.toInt = (v.toNat : Int) := by
    have hlt := v.isLt
    have hc := BitVec.toInt_eq_toNat_cond v
    split at hc <;> omega
  have hv512 : v.toNat < 512 := by omega
  constructor
  · intro h
    apply Fin.ext
    show l.val = min v.toInt.toNat 511
    have : v.toNat = l.val := by rw [h, BitVec.toNat_ofNat]; omega
    omega
  · intro h
    have hval : l.val = min v.toInt.toNat 511 := congrArg Fin.val h
    apply BitVec.eq_of_toNat_eq
    rw [BitVec.toNat_ofNat]
    omega

/-- The share as the running sum of its parts over all 30 words. -/
theorem share_eq_sum_range (ix : Fin 256 → Fin 30 → BitVec 32) (wt : Fin 256 → Fin 30 → EReal) (n : Fin 256) (l : Fin 512) :
    share ix wt n l = ∑ w ∈ Finset.range 30, sharePart ix wt n l w := by
  unfold share
  rw [← Fin.sum_univ_eq_sum_range (fun w => sharePart ix wt n l w) 30]
  refine Finset.sum_congr rfl fun w _ => ?_
  unfold sharePart
  rw [dif_pos w.isLt]

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The leaky unit of real numbers is a real number. -/
theorem leaky_coe (α x : ℝ) : ∃ r : ℝ, leaky (α : EReal) (x : EReal) = (r : EReal) := by
  unfold leaky Scalar.select
  split
  · exact ⟨x, rfl⟩
  · exact ⟨α * x, (EReal.coe_mul α x).symm⟩

/-- A token's projection from real data is a real number. -/
theorem token_real (a : Fin 512 → Fin 3072 → EReal) (wb : Fin 300 → Fin 3072 → EReal) (bb : Fin 300 → EReal) (α : EReal)
    (ha : ∀ l k, ∃ r : ℝ, a l k = (r : EReal)) (hwb : ∀ e k, ∃ r : ℝ, wb e k = (r : EReal))
    (hbb : ∀ e, ∃ r : ℝ, bb e = (r : EReal)) (hα : ∃ r : ℝ, α = (r : EReal)) (l : Fin 512) (e : Fin 300) :
    ∃ r : ℝ, token a wb bb α l e = (r : EReal) := by
  choose ar har using ha
  choose wr hwr using hwb
  choose br hbr using hbb
  obtain ⟨αr, rfl⟩ := hα
  unfold token
  have h : (∑ k : Fin 3072, a l k * wb e k) + bb e = (((∑ k : Fin 3072, ar l k * wr e k) + br e : ℝ) : EReal) := by
    rw [EReal.coe_add, coe_sum, hbr]
    refine congrArg (fun z : EReal => z + ((br e : ℝ) : EReal)) ?_
    exact Finset.sum_congr rfl fun k _ => by rw [har, hwr, EReal.coe_mul]
  rw [h]
  exact leaky_coe _ _

theorem pooledByToken_eq_pooledByWord
    (a : Fin 512 → Fin 3072 → EReal) (wb : Fin 300 → Fin 3072 → EReal) (bb : Fin 300 → EReal) (α : EReal)
    (ix : Fin 256 → Fin 30 → BitVec 32) (wt : Fin 256 → Fin 30 → EReal)
    (ha : ∀ l k, ∃ r : ℝ, a l k = (r : EReal)) (hwb : ∀ e k, ∃ r : ℝ, wb e k = (r : EReal))
    (hbb : ∀ e, ∃ r : ℝ, bb e = (r : EReal)) (hα : ∃ r : ℝ, α = (r : EReal))
    (hwt : ∀ n w, ∃ r : ℝ, wt n w = (r : EReal))
    (hix : ∀ n w, 0 ≤ (ix n w).toInt ∧ (ix n w).toInt < 512) :
    pooledByToken a wb bb α ix wt = pooledByWord a wb bb α ix wt := by
  funext n e
  have hT : ∀ l, ∃ r : ℝ, token a wb bb α l e = (r : EReal) := fun l => token_real a wb bb α ha hwb hbb hα l e
  choose T hT using hT
  choose ω hω using hwt
  have hnames : ∀ (w : Fin 30) (l : Fin 512),
      names (ix n w) l = (((if l = position (ix n w) then 1 else 0 : ℝ)) : EReal) := by
    intro w l
    rw [names_eq]
    by_cases h : l = position (ix n w)
    · rw [if_pos ((names_iff_position _ (hix n w).1 (hix n w).2 l).mpr h), if_pos h, EReal.coe_one]
    · rw [if_neg (fun h' => h ((names_iff_position _ (hix n w).1 (hix n w).2 l).mp h')), if_neg h, EReal.coe_zero]
  unfold pooledByToken pooledByWord share
  simp only [hT, hω, hnames, ← EReal.coe_mul, ← coe_sum]
  refine congrArg (fun r : ℝ => (r : EReal)) ?_
  simp only [Finset.sum_mul, mul_ite, mul_one, mul_zero, ite_mul, zero_mul]
  rw [Finset.sum_comm]
  refine Finset.sum_congr rfl fun w _ => ?_
  rw [Finset.sum_ite_eq' Finset.univ (position (ix n w)) (fun l => ω n w * T l), if_pos (Finset.mem_univ _)]
  exact mul_comm _ _

end Cert.NodePool

end
-- ==== Proof.SpecWhole.lean ====
/-
  The whole program's result as one function of its argument arrays: entry (b, n) is node n's score in batch row b,
  the row's function (`score`) applied to row b of the articles, the node indices and the mask and to the weight
  arrays, for either arrangement of the pooled sum. On real-valued articles and projection weights, with every node
  index in [0, 512), the two arrangements give the same result.
-/
import proofs.«430724_j51539607552910_3_alg».proof.Proof.Spec

noncomputable section

namespace Cert.NodePool

open Idealize.ShloMosaic Idealize.ShloMosaic.ValueIdx

/-- An arrangement of the pooled sum: a function of a row's articles, the projection, the slope, the row's index words
    and their weights. -/
abbrev Pooling : Type :=
  (Fin 512 → Fin 3072 → EReal) → (Fin 300 → Fin 3072 → EReal) → (Fin 300 → EReal) → EReal
    → (Fin 256 → Fin 30 → BitVec 32) → (Fin 256 → Fin 30 → EReal) → Fin 256 → Fin 300 → EReal

/-- Entry (b, n) of the result, from the whole argument arrays. -/
def result (pool : Pooling)
    (X0 : (⟨3, ![16, 512, 3072]⟩ : Shape).Idx → EReal) (X1 X2 : (⟨3, ![16, 256, 30]⟩ : Shape).Idx → BitVec 32)
    (X5 : (⟨2, ![300, 3072]⟩ : Shape).Idx → EReal) (X6 : (⟨1, ![300]⟩ : Shape).Idx → EReal)
    (X7 : (⟨1, ![1]⟩ : Shape).Idx → EReal) (X8 : (⟨2, ![256, 300]⟩ : Shape).Idx → EReal)
    (X9 : (⟨1, ![256]⟩ : Shape).Idx → EReal) (X10 : (⟨2, ![1, 256]⟩ : Shape).Idx → EReal)
    (X11 : (⟨1, ![1]⟩ : Shape).Idx → EReal) (b : Fin 16) (n : Fin 256) : EReal :=
  score
    (pool (fun l k => X0 (ix3 b l k)) (fun e k => X5 (ix2 e k)) (fun e => X6 (ix1 e)) (X7 (ix1 (0 : Fin 1)))
      (fun n w => X1 (ix3 b n w)) (fun n w => weight (X2 (ix3 b n w))))
    (fun n w => weight (X2 (ix3 b n w)))
    (fun h e => X8 (ix2 h e)) (fun h => X9 (ix1 h)) (fun h => X10 (ix2 (0 : Fin 1) h)) (X11 (ix1 (0 : Fin 1))) n

/-- The token-by-token pooled sum depends on its data entry by entry. -/
theorem pooledByToken_congr {a a' : Fin 512 → Fin 3072 → EReal} {wb wb' : Fin 300 → Fin 3072 → EReal}
    {bb bb' : Fin 300 → EReal} {α α' : EReal} {ix ix' : Fin 256 → Fin 30 → BitVec 32} {wt wt' : Fin 256 → Fin 30 → EReal}
    (ha : ∀ l k, a l k = a' l k) (hwb : ∀ e k, wb e k = wb' e k) (hbb : ∀ e, bb e = bb' e) (hα : α = α')
    (hix : ∀ n w, ix n w = ix' n w) (hwt : ∀ n w, wt n w = wt' n w) :
    pooledByToken a wb bb α ix wt = pooledByToken a' wb' bb' α' ix' wt' := by
  obtain rfl : a = a' := funext fun l => funext (ha l)
  obtain rfl : wb = wb' := funext fun e => funext (hwb e)
  obtain rfl : bb = bb' := funext hbb
  obtain rfl : ix = ix' := funext fun n => funext (hix n)
  obtain rfl : wt = wt' := funext fun n => funext (hwt n)
  rw [hα]

/-- The score depends on its data entry by entry. -/
theorem score_congr {p p' : Fin 256 → Fin 300 → EReal} {wt wt' : Fin 256 → Fin 30 → EReal}
    {w1 w1' : Fin 256 → Fin 300 → EReal} {c1 c1' : Fin 256 → EReal} {w2 w2' : Fin 256 → EReal} {c2 c2' : EReal}
    (hp : p = p') (hwt : ∀ n w, wt n w = wt' n w) (hw1 : ∀ h e, w1 h e = w1' h e) (hc1 : ∀ h, c1 h = c1' h)
    (hw2 : ∀ h, w2 h = w2' h) (hc2 : c2 = c2') (n : Fin 256) :
    score p wt w1 c1 w2 c2 n = score p' wt' w1' c1' w2' c2' n := by
  obtain rfl : wt = wt' := funext fun n => funext (hwt n)
  obtain rfl : w1 = w1' := funext fun h => funext (hw1 h)
  obtain rfl : c1 = c1' := funext hc1
  obtain rfl : w2 = w2' := funext hw2
  rw [hp, hc2]

/-- On real articles, projection weights, bias and slope, and node indices in [0, 512), the result is the same for
    both arrangements of the pooled sum. -/
theorem result_arrangements
    (X0 : (⟨3, ![16, 512, 3072]⟩ : Shape).Idx → EReal) (X1 X2 : (⟨3, ![16, 256, 30]⟩ : Shape).Idx → BitVec 32)
    (X5 : (⟨2, ![300, 3072]⟩ : Shape).Idx → EReal) (X6 : (⟨1, ![300]⟩ : Shape).Idx → EReal)
    (X7 : (⟨1, ![1]⟩ : Shape).Idx → EReal) (X8 : (⟨2, ![256, 300]⟩ : Shape).Idx → EReal)
    (X9 : (⟨1, ![256]⟩ : Shape).Idx → EReal) (X10 : (⟨2, ![1, 256]⟩ : Shape).Idx → EReal)
    (X11 : (⟨1, ![1]⟩ : Shape).Idx → EReal)
    (h0 : ∀ i, ∃ r : ℝ, X0 i = (r : EReal)) (h5 : ∀ i, ∃ r : ℝ, X5 i = (r : EReal)) (h6 : ∀ i, ∃ r : ℝ, X6 i = (r : EReal))
    (h7 : ∀ i, ∃ r : ℝ, X7 i = (r : EReal)) (h1 : ∀ i, 0 ≤ (X1 i).toInt ∧ (X1 i).toInt < 512) (b : Fin 16) (n : Fin 256) :
    result pooledByToken X0 X1 X2 X5 X6 X7 X8 X9 X10 X11 b n = result pooledByWord X0 X1 X2 X5 X6 X7 X8 X9 X10 X11 b n := by
  unfold result
  rw [pooledByToken_eq_pooledByWord _ _ _ _ _ _ (fun l k => h0 _) (fun e k => h5 _) (fun e => h6 _) (h7 _)
    (fun n w => ⟨_, weight_eq _⟩) (fun n w => h1 _)]

end Cert.NodePool

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.KToken.lean ====
/-
  The projection stage of the kernel body read at an entry: token l, coordinate e of the block's projected and
  leaky-rectified embeddings is the row-by-column product of the article block with the (already transposed) weight
  block, plus the bias, through the leaky unit whose slope is the block's one scalar.
-/
import proofs.«430724_j51539607552910_3_alg».proof.Proof.Gen.KernelIdeal.Skeleton
import proofs.«430724_j51539607552910_3_alg».proof.Proof.Spec
import proofs.«430724_j51539607552910_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The value before the leaky unit, at (l, e): the article block with its unit axis dropped, times the weight block,
    accumulated from zero, plus the bias row repeated down the 512 token rows. Narrowing the articles changes nothing
    over the extended reals, and the weight block's cast is to its own shape. -/
private theorem preactivation (v0 : FVec Ideal S1x512x3072 .f32) (v3 : FVec Ideal S3072x300 .bf16) (v6 : FVec Ideal S300 .f32)
    (l : Fin 512) (e : Fin 300) :
    addf
        (matmul dot_S512x3072_S3072x300_S512x300_1_0_0_1_n_n none
          (truncf .bf16 (shapeCast S512x3072 v0 shapeCasts_S1x512x3072_S512x3072) bitsLt_bf16_f32)
          (shapeCast S3072x300 v3 shapeCasts_S3072x300_S3072x300) (constant (F := Ideal) S512x300 .f32 0x00000000#32))
        (broadcastTo S512x300 (shapeCast S1x300 v6 shapeCasts_S300_S1x300) broadcasts_S1x300_S512x300) (ix2 l e)
      = (∑ k : Fin 3072, v0 (ix3 (0 : Fin 1) l k) * v3 (ix2 k e)) + v6 (ix1 e) := by
  refine congrArg₂ (· + ·) ?_ ?_
  · -- the product: the generated record of dimension numbers is the plain one up to its proof field
    refine (PlainDot.matmul_zero_apply 512 3072 300 none _ _ l e).trans ?_
    refine Finset.sum_congr rfl fun k _ => congrArg₂ (· * ·) ?_ ?_
    · exact shapeCast_1ab_ab_apply v0 shapeCasts_S1x512x3072_S512x3072 l k
    · exact congrFun (shapeCast_self v3 shapeCasts_S3072x300_S3072x300) (ix2 k e)
  · -- the bias: row 0 of the one-row array, which is the vector's entry e
    exact (broadcastTo_1b_ab_apply _ broadcasts_S1x300_S512x300 l e).trans
      (shapeCast_a_1a_apply v6 shapeCasts_S300_S1x300 (0 : Fin 1) e)

/-- The leaky unit as the kernel spells it, read at an index: compare with zero, scale by the slope, choose. -/
private theorem leaky_read (P : FVec Ideal S512x300 .f32) (s α x : EReal) (i : S512x300.Idx) (hP : P i = x) (hs : s = α) :
    select (cmpf .ogt P (broadcast S512x300 (Scalar.ofBits (F := Ideal) .f32 0x00000000#32))) P
        (mulf (broadcast S512x300 s) P) i
      = Cert.NodePool.leaky α x := by
  subst hP; subst hs; rfl

theorem token_payload (v0 : FVec Ideal S1x512x3072 .f32) (v3 : FVec Ideal S3072x300 .bf16) (v6 : FVec Ideal S300 .f32)
    (v10 : FVec Ideal S1 .f32) (l : Fin 512) (e : Fin 300) :
    k0_pay2 (F := Ideal) v0 v3 v6 v10 (ix2 l e)
      = Cert.NodePool.token (fun l k => v0 (ix3 (0 : Fin 1) l k)) (fun e k => v3 (ix2 k e)) (fun e => v6 (ix1 e))
          (v10 (ix1 (0 : Fin 1))) l e := by
  -- the slope: the one entry of the scalar block
  have hs : extractAt ![0] v10 inpos_S1_p0 = v10 (ix1 (0 : Fin 1)) :=
    congrArg v10 (funext fun a => match a with | ⟨0, _⟩ => rfl)
  unfold k0_pay2 Cert.NodePool.token
  exact leaky_read _ _ _ _ (ix2 l e) (preactivation v0 v3 v6 l e) hs

end Cert.KernelIdeal.Block

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.KHead.lean ====
/-
  The tail of the kernel body read at a node: from the projected tokens, the running share after 28 words and the
  last two words' pieces, the body forms the full share, multiplies it into the tokens, divides by the node's
  divisor and applies the two-layer head. Entry (0, n) of its result is the node's score, computed from the pooled
  sum taken token by token.
-/
import proofs.«430724_j51539607552910_3_alg».proof.Proof.Gen.KernelIdeal.Skeleton
import proofs.«430724_j51539607552910_3_alg».proof.Proof.Spec
import proofs.«430724_j51539607552910_3_alg».proof.Proof.LibPlainDot
import proofs.«430724_j51539607552910_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The full share at (n, l): the running share, the 29th word's product, and the 30th word's term. -/
private theorem share_apply (v18 : IVec S256x30 32) (v21 : FVec Ideal S256x30 .f32)
    (v275 v281 v282 : FVec Ideal S256x512 .f32) (n : Fin 256) (l : Fin 512) :
    addf (addf v275 (mulf v282 v281))
      (mulf (broadcastTo S256x512 (extractStridedSlice S256x1 ![0, 29] v21 slices_S256x30_o0_29_S256x1) broadcasts_S256x1_S256x512)
        (sitofp .f32 (extui 32 (cmpi .eq
          (broadcastTo S256x512 (extractStridedSlice S256x1 ![0, 29] v18 slices_S256x30_o0_29_S256x1) broadcasts_S256x1_S256x512)
          (iota .tc S256x512 32 [1] iota_S256x512_d1_w32)) natLt_1_32))) (ix2 n l)
      = (v275 (ix2 n l) + v282 (ix2 n l) * v281 (ix2 n l))
          + v21 (ix2 n (29 : Fin 30)) * Cert.NodePool.names (v18 (ix2 n (29 : Fin 30))) l := by
  refine congrArg₂ (· + ·) rfl (congrArg₂ (· * ·) ?_ ?_)
  · exact (Columns.broadcastTo_a1_ab_apply _ _ n l).trans
      (slice2_axis1_apply 29 v21 _ n (0 : Fin 1) (29 : Fin 30) rfl)
  · have e1 : broadcastTo S256x512 (extractStridedSlice S256x1 ![0, 29] v18 slices_S256x30_o0_29_S256x1)
        broadcasts_S256x1_S256x512 (ix2 n l) = v18 (ix2 n (29 : Fin 30)) :=
      (Columns.broadcastTo_a1_ab_apply _ _ n l).trans (slice2_axis1_apply 29 v18 _ n (0 : Fin 1) (29 : Fin 30) rfl)
    have e2 : iota .tc S256x512 32 [1] iota_S256x512_d1_w32 (ix2 n l) = BitVec.ofNat 32 l.val :=
      iota_single_apply .tc S256x512 32 1 iota_S256x512_d1_w32 (ix2 n l)
    show ((((IntOp.cmpi .eq _ _).setWidth 32).toInt : ℝ) : EReal) = _
    rw [e1, e2]
    rfl

/-- The reduced index (n) with the dropped coordinate k put back is (n, k). -/
private theorem lift_row (n : Fin 256) (k : Fin 30) :
    reduces_S256x30_S256.lift (ix1 n) k = ix2 n k := by
  funext c
  apply Fin.ext
  match c with
  | ⟨0, _⟩ => rfl
  | ⟨1, _⟩ => rfl

/-- The node's divisor, read from the column at (n, 0): the row sum of the weights, at least 1. -/
private theorem divisor_apply (v21 : FVec Ideal S256x30 .f32) (n : Fin 256) :
    maximumf
        (shapeCast S256x1 (multiReduction (F := Ideal) .add [1] S256 v21 0x00000000#32 reduces_S256x30_S256 (.inl rfl) rfl)
          shapeCasts_S256_S256x1)
        (broadcast S256x1 (Scalar.ofBits (F := Ideal) .f32 0x3F800000#32)) (ix2 n (0 : Fin 1))
      = Cert.NodePool.divisor (fun n w => v21 (ix2 n w)) n := by
  show max (shapeCast S256x1 _ shapeCasts_S256_S256x1 (ix2 n (0 : Fin 1))) (Ideal.ofBits .f32 0x3F800000#32) = max _ _
  refine congrArg (fun x => max x _) ?_
  refine (Columns.shapeCast_a_a1_apply _ _ n 0).trans ?_
  refine (Ideal.multiReduction_add_single v21 0x00000000#32 reduces_S256x30_S256 (.inl rfl) rfl (ix1 n)).trans ?_
  exact Finset.sum_congr rfl fun k _ => congrArg v21 (lift_row n k)

/-- The head read at (0, n), over any share S and divisor column D: the product of the share with the tokens,
    divided by the divisor, through the two affine layers. -/
private theorem head_apply (S : FVec Ideal S256x512 .f32) (D : FVec Ideal S256x1 .f32) (v16 : FVec Ideal S512x300 .f32)
    (v303 : FVec Ideal S300x256 .bf16) (v307 : FVec Ideal S256 .f32) (v313 : FVec Ideal S256x1 .bf16)
    (v317 : FVec Ideal S1 .f32) (n : Fin 256) :
    shapeCast S1x256 (shapeCast S256
      (addf
        (matmul dot_S256x256_S256x1_S256x1_1_0_0_1_n_n none
          (truncf .bf16
            (maximumf
              (addf
                (matmul dot_S256x300_S300x256_S256x256_1_0_0_1_n_n none
                  (truncf .bf16
                    (divf
                      (matmul dot_S256x512_S512x300_S256x300_1_0_0_1_n_n none (truncf .bf16 S bitsLt_bf16_f32)
                        (truncf .bf16 v16 bitsLt_bf16_f32) (constant S256x300 .f32 0x00000000#32))
                      (broadcastTo S256x300 D broadcasts_S256x1_S256x300))
                    bitsLt_bf16_f32)
                  (shapeCast S300x256 v303 shapeCasts_S300x256_S300x256) (constant S256x256 .f32 0x00000000#32))
                (broadcastTo S256x256 (shapeCast S1x256 v307 shapeCasts_S256_S1x256) broadcasts_S1x256_S256x256))
              (broadcast S256x256 (Scalar.ofBits (F := Ideal) .f32 0x00000000#32)))
            bitsLt_bf16_f32)
          (shapeCast S256x1 v313 shapeCasts_S256x1_S256x1) (constant S256x1 .f32 0x00000000#32))
        (broadcastTo S256x1 (shapeCast S1x1 v317 shapeCasts_S1_S1x1) broadcasts_S1x1_S256x1))
      shapeCasts_S256x1_S256) shapeCasts_S256_S1x256 (ix2 (0 : Fin 1) n)
      = (∑ h : Fin 256,
          max ((∑ e : Fin 300,
                Ideal.div (∑ l : Fin 512, S (ix2 n l) * v16 (ix2 l e)) (D (ix2 n (0 : Fin 1))) * v303 (ix2 e h))
              + v307 (ix1 h)) (Ideal.ofBits .f32 0x00000000#32) * v313 (ix2 h (0 : Fin 1)))
          + v317 (ix1 (0 : Fin 1)) := by
  refine (shapeCast_a_1a_apply _ _ (0 : Fin 1) n).trans ?_
  refine (Columns.shapeCast_a1_a_apply _ _ n).trans ?_
  refine congrArg₂ (· + ·) ?_ ?_
  · refine (PlainDot.matmul_zero_apply 256 256 1 none _ _ n (0 : Fin 1)).trans ?_
    refine Finset.sum_congr rfl fun h _ => congrArg₂ (· * ·) ?_ ?_
    · show max (_ + _) (Ideal.ofBits .f32 0x00000000#32) = _
      refine congrArg (fun x => max x _) (congrArg₂ (· + ·) ?_ ?_)
      · refine (PlainDot.matmul_zero_apply 256 300 256 none _ _ n h).trans ?_
        refine Finset.sum_congr rfl fun e _ => congrArg₂ (· * ·) ?_ ?_
        · show Ideal.div _ _ = _
          refine congrArg₂ Ideal.div ?_ ?_
          · exact PlainDot.matmul_zero_apply 256 512 300 none _ _ n e
          · exact Columns.broadcastTo_a1_ab_apply D _ n e
        · exact congrFun (shapeCast_self v303 _) (ix2 e h)
      · exact (broadcastTo_1b_ab_apply _ _ n h).trans (shapeCast_a_1a_apply v307 _ 0 h)
    · exact congrFun (shapeCast_self v313 _) (ix2 h (0 : Fin 1))
  · exact (broadcastTo_1b_ab_apply _ _ n (0 : Fin 1)).trans (shapeCast_a_1a_apply v317 _ 0 0)

theorem head_payload (v16 : FVec Ideal S512x300 .f32) (v18 : IVec S256x30 32) (v21 : FVec Ideal S256x30 .f32)
    (v275 v281 v282 : FVec Ideal S256x512 .f32) (v303 : FVec Ideal S300x256 .bf16) (v307 : FVec Ideal S256 .f32)
    (v313 : FVec Ideal S256x1 .bf16) (v317 : FVec Ideal S1 .f32) (n : Fin 256) :
    k0_pay18 (F := Ideal) v16 v18 v21 (iota .tc S256x512 32 [1] iota_S256x512_d1_w32) v275 v281 v282 v303 v307 v313 v317 (ix2 (0 : Fin 1) n)
      = Cert.NodePool.score
          (fun n e => ∑ l : Fin 512, ((v275 (ix2 n l) + v282 (ix2 n l) * v281 (ix2 n l))
              + v21 (ix2 n (29 : Fin 30)) * Cert.NodePool.names (v18 (ix2 n (29 : Fin 30))) l) * v16 (ix2 l e))
          (fun n w => v21 (ix2 n w))
          (fun h e => v303 (ix2 e h)) (fun h => v307 (ix1 h)) (fun h => v313 (ix2 h (0 : Fin 1)))
          (v317 (ix1 (0 : Fin 1))) n := by
  unfold k0_pay18
  refine (head_apply _ _ v16 v303 v307 v313 v317 n).trans ?_
  simp only [Cert.NodePool.score, Cert.NodePool.hidden, Cert.NodePool.mean]
  refine congrArg (· + _) (Finset.sum_congr rfl fun h _ => congrArg (· * _) (congrArg (fun x => max x _)
    (congrArg (· + _) (Finset.sum_congr rfl fun e _ => congrArg (· * _) (congrArg₂ Ideal.div ?_ ?_)))))
  · exact Finset.sum_congr rfl fun l _ => congrArg (· * _) (share_apply v18 v21 v275 v281 v282 n l)
  · exact divisor_apply v21 n

end Cert.KernelIdeal.Block

end
-- ==== Proof.KShare.lean ====
/-
  The running share of the kernel body read at an entry. The body builds a node's share of every token by adding, one
  word at a time, weight · [the word names the token]; this module names the value it has after the first 28 words and
  reads it, and the 29th word's two pieces, at (node n, token l).
-/
import proofs.«430724_j51539607552910_3_alg».proof.Proof.Gen.KernelIdeal.Skeleton
import proofs.«430724_j51539607552910_3_alg».proof.Proof.Spec
import proofs.«430724_j51539607552910_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The running share after the first 28 words, as the body computes it from the index block and the mask block. -/
def shareAfter28 (x1 x2 : IVec S1x256x30 32) : FVec Ideal S256x512 .f32 :=
  k0_pay15 (k0_pay3 (F := Ideal) x1) (k0_pay4 x2) (iota .tc S256x512 32 [1] iota_S256x512_d1_w32) (k0_pay13 (k0_pay3 (F := Ideal) x1) (k0_pay4 x2) (iota .tc S256x512 32 [1] iota_S256x512_d1_w32) (k0_pay10 (k0_pay3 (F := Ideal) x1) (k0_pay4 x2) (iota .tc S256x512 32 [1] iota_S256x512_d1_w32) (k0_pay7 (k0_pay3 (F := Ideal) x1) (k0_pay4 x2) (iota .tc S256x512 32 [1] iota_S256x512_d1_w32) (k0_pay5 x1 x2) (k0_pay6 (F := Ideal) x1)) (k0_pay8 (F := Ideal) (k0_pay3 (F := Ideal) x1) (iota .tc S256x512 32 [1] iota_S256x512_d1_w32)) (k0_pay9 (k0_pay4 x2))) (k0_pay11 (k0_pay4 x2)) (k0_pay12 (k0_pay3 (F := Ideal) x1) (iota .tc S256x512 32 [1] iota_S256x512_d1_w32))) (k0_pay14 (k0_pay3 (F := Ideal) x1))

/-- A column cut from a 256 × 30 array at word w and laid along the tokens reads, at (n, l), the array at (n, w). -/
private theorem col_apply {α : Type} (x : S256x30.Idx → α) (w : ℕ) (hs : S256x30.Slices ![0, w] S256x1)
    (hb : S256x1.Broadcasts S256x512) (hw : w < 30) (n : Fin 256) (l : Fin 512) :
    broadcastTo S256x512 (extractStridedSlice S256x1 ![0, w] x hs) hb (ix2 n l) = x (ix2 n ⟨w, hw⟩) := by
  refine (Columns.broadcastTo_a1_ab_apply _ hb n l).trans ?_
  refine extractStridedSlice_apply _ x hs _ _ fun a => ?_
  match a with
  | ⟨0, _⟩ => show n.val = 0 + n.val; omega
  | ⟨1, _⟩ => show w = w + 0; omega

/-- A slice fact at word w says w is below 30. -/
private theorem lt_of_slices (w : ℕ) (hs : S256x30.Slices ![0, w] S256x1) : w < 30 := by
  obtain ⟨h, hle⟩ := hs
  have := hle ⟨1, by decide⟩
  change w + 1 ≤ 30 at this
  omega

/-- One word's term of the running share at (n, l). -/
private theorem word_apply (idx : IVec S256x30 32) (wt : FVec Ideal S256x30 .f32) (w : ℕ)
    (hs : S256x30.Slices ![0, w] S256x1) (hb : S256x1.Broadcasts S256x512) (hi : S256x512.Iotas .tc 32 [1])
    (h132 : 1 < 32) (n : Fin 256) (l : Fin 512) :
    mulf (broadcastTo S256x512 (extractStridedSlice S256x1 ![0, w] wt hs) hb)
        (sitofp .f32 (extui 32 (cmpi .eq (broadcastTo S256x512 (extractStridedSlice S256x1 ![0, w] idx hs) hb)
          (iota .tc S256x512 32 [1] hi)) h132)) (ix2 n l)
      = Cert.NodePool.sharePart (fun n w => idx (ix2 n w)) (fun n w => wt (ix2 n w)) n l w := by
  have hw : w < 30 := lt_of_slices w hs
  show (broadcastTo S256x512 (extractStridedSlice S256x1 ![0, w] wt hs) hb (ix2 n l))
      * FloatOps.sitofp (F := Ideal) .f32 ((IntOp.cmpi .eq
          (broadcastTo S256x512 (extractStridedSlice S256x1 ![0, w] idx hs) hb (ix2 n l))
          (iota .tc S256x512 32 [1] hi (ix2 n l))).setWidth 32) = _
  rw [col_apply wt w hs hb hw, col_apply idx w hs hb hw, iota_single_apply]
  unfold Cert.NodePool.sharePart
  rw [dif_pos hw]
  rfl

/-- One word's part of the running share, over the two 256 × 30 arrays the body reads. -/
private abbrev part (idx : IVec S256x30 32) (wt : FVec Ideal S256x30 .f32) (n : Fin 256) (l : Fin 512) (w : ℕ) : EReal :=
  Cert.NodePool.sharePart (fun n w => idx (ix2 n w)) (fun n w => wt (ix2 n w)) n l w

/-- One word's term, as a part. -/
private theorem word_part (idx : IVec S256x30 32) (wt : FVec Ideal S256x30 .f32) (w : ℕ)
    (hs : S256x30.Slices ![0, w] S256x1) (hb : S256x1.Broadcasts S256x512) (hi : S256x512.Iotas .tc 32 [1])
    (h132 : 1 < 32) (n : Fin 256) (l : Fin 512) :
    mulf (broadcastTo S256x512 (extractStridedSlice S256x1 ![0, w] wt hs) hb)
        (sitofp .f32 (extui 32 (cmpi .eq (broadcastTo S256x512 (extractStridedSlice S256x1 ![0, w] idx hs) hb)
          (iota .tc S256x512 32 [1] hi)) h132)) (ix2 n l)
      = part idx wt n l w := word_apply idx wt w hs hb hi h132 n l

/-- The body's first piece: zero, then words 0 and 1. -/
private theorem pay5_apply (x1 x2 : IVec S1x256x30 32) (n : Fin 256) (l : Fin 512) :
    k0_pay5 (F := Ideal) x1 x2 (ix2 n l)
      = (0 + part (k0_pay3 (F := Ideal) x1) (k0_pay4 x2) n l 0) + part (k0_pay3 (F := Ideal) x1) (k0_pay4 x2) n l 1 := by
  unfold k0_pay5
  simp only [↓addf_apply, ↓word_part, broadcast_apply]
  rw [show (FloatOps.ofBits FTy.f32 0#32 : Ideal .f32) = 0 from Ideal.ofBits_zero_f32]

/-- The second piece adds words 2 to 7 to the value it receives. -/
private theorem pay7_apply (v18 : IVec S256x30 32) (v21 : FVec Ideal S256x30 .f32) (v41 : FVec Ideal S256x512 .f32)
    (n : Fin 256) (l : Fin 512) :
    k0_pay7 v18 v21 (iota .tc S256x512 32 [1] iota_S256x512_d1_w32) v41 (extractStridedSlice S256x1 ![0, 2] v18 slices_S256x30_o0_2_S256x1) (ix2 n l)
      = v41 (ix2 n l) + part v18 v21 n l 2 + part v18 v21 n l 3 + part v18 v21 n l 4 + part v18 v21 n l 5 + part v18 v21 n l 6 + part v18 v21 n l 7 := by
  unfold k0_pay7
  simp only [↓addf_apply, ↓word_part]

/-- The third piece adds words 8 to 14 to the value it receives. -/
private theorem pay10_apply (v18 : IVec S256x30 32) (v21 : FVec Ideal S256x30 .f32) (v95 : FVec Ideal S256x512 .f32)
    (n : Fin 256) (l : Fin 512) :
    k0_pay10 v18 v21 (iota .tc S256x512 32 [1] iota_S256x512_d1_w32) v95 (k0_pay8 (F := Ideal) v18 (iota .tc S256x512 32 [1] iota_S256x512_d1_w32)) (k0_pay9 v21) (ix2 n l)
      = v95 (ix2 n l) + part v18 v21 n l 8 + part v18 v21 n l 9 + part v18 v21 n l 10 + part v18 v21 n l 11 + part v18 v21 n l 12 + part v18 v21 n l 13 + part v18 v21 n l 14 := by
  unfold k0_pay10 k0_pay8 k0_pay9
  simp only [↓addf_apply, ↓word_part]

/-- The fourth piece adds words 15 to 21 to the value it receives. -/
private theorem pay13_apply (v18 : IVec S256x30 32) (v21 : FVec Ideal S256x30 .f32) (v158 : FVec Ideal S256x512 .f32)
    (n : Fin 256) (l : Fin 512) :
    k0_pay13 v18 v21 (iota .tc S256x512 32 [1] iota_S256x512_d1_w32) v158 (k0_pay11 v21) (k0_pay12 v18 (iota .tc S256x512 32 [1] iota_S256x512_d1_w32)) (ix2 n l)
      = v158 (ix2 n l) + part v18 v21 n l 15 + part v18 v21 n l 16 + part v18 v21 n l 17 + part v18 v21 n l 18 + part v18 v21 n l 19 + part v18 v21 n l 20 + part v18 v21 n l 21 := by
  unfold k0_pay13 k0_pay11 k0_pay12
  simp only [↓addf_apply, ↓word_part]

/-- The fifth piece adds words 22 to 27 to the value it receives. -/
private theorem pay15_apply (v18 : IVec S256x30 32) (v21 : FVec Ideal S256x30 .f32) (v221 : FVec Ideal S256x512 .f32)
    (n : Fin 256) (l : Fin 512) :
    k0_pay15 v18 v21 (iota .tc S256x512 32 [1] iota_S256x512_d1_w32) v221 (k0_pay14 v18) (ix2 n l)
      = v221 (ix2 n l) + part v18 v21 n l 22 + part v18 v21 n l 23 + part v18 v21 n l 24 + part v18 v21 n l 25 + part v18 v21 n l 26 + part v18 v21 n l 27 := by
  unfold k0_pay15 k0_pay14
  simp only [↓addf_apply, ↓word_part]

/-- A rank-3 index with a leading zero is the rank-2 index with a zero put in front. -/
private theorem cons_ix2 (n : Fin 256) (w : Fin 30) :
    (Fin.cons (⟨0, Nat.one_pos⟩ : Fin 1) (ix2 n w) : S1x256x30.Idx) = ix3 (0 : Fin 1) n w := by
  funext a
  match a with
  | ⟨0, _⟩ => rfl
  | ⟨1, _⟩ => rfl
  | ⟨2, _⟩ => rfl

/-- The index block with its unit axis dropped. -/
theorem index_words (x1 : IVec S1x256x30 32) (n : Fin 256) (w : Fin 30) :
    k0_pay3 (F := Ideal) x1 (ix2 n w) = x1 (ix3 (0 : Fin 1) n w) := by
  unfold k0_pay3
  exact (shapeCast_dropUnit_apply ![256, 30] x1 shapeCasts_S1x256x30_S256x30 (ix2 n w)).trans
    (congrArg x1 (cons_ix2 n w))

/-- The mask block with its unit axis dropped, as weights. -/
theorem mask_weights (x2 : IVec S1x256x30 32) (n : Fin 256) (w : Fin 30) :
    k0_pay4 (F := Ideal) x2 (ix2 n w) = Cert.NodePool.weight (x2 (ix3 (0 : Fin 1) n w)) := by
  unfold k0_pay4
  show FloatOps.sitofp (F := Ideal) .f32 (shapeCast S256x30 x2 shapeCasts_S1x256x30_S256x30 (ix2 n w)) = _
  exact congrArg (FloatOps.sitofp (F := Ideal) .f32)
    ((shapeCast_dropUnit_apply ![256, 30] x2 shapeCasts_S1x256x30_S256x30 (ix2 n w)).trans
      (congrArg x2 (cons_ix2 n w)))

/-- After 28 words the running share is the sum of the first 28 parts. -/
theorem shareAfter28_apply (x1 x2 : IVec S1x256x30 32) (n : Fin 256) (l : Fin 512) :
    shareAfter28 x1 x2 (ix2 n l)
      = ∑ w ∈ Finset.range 28, Cert.NodePool.sharePart (fun n w => x1 (ix3 (0 : Fin 1) n w))
          (fun n w => Cert.NodePool.weight (x2 (ix3 (0 : Fin 1) n w))) n l w := by
  have h1 : (fun (n : Fin 256) (w : Fin 30) => k0_pay3 (F := Ideal) x1 (ix2 n w))
      = fun n w => x1 (ix3 (0 : Fin 1) n w) := funext fun n => funext fun w => index_words x1 n w
  have h2 : (fun (n : Fin 256) (w : Fin 30) => k0_pay4 (F := Ideal) x2 (ix2 n w))
      = fun n w => Cert.NodePool.weight (x2 (ix3 (0 : Fin 1) n w)) :=
    funext fun n => funext fun w => mask_weights x2 n w
  have hp : ∀ w : ℕ, part (k0_pay3 (F := Ideal) x1) (k0_pay4 x2) n l w
      = Cert.NodePool.sharePart (fun n w => x1 (ix3 (0 : Fin 1) n w))
          (fun n w => Cert.NodePool.weight (x2 (ix3 (0 : Fin 1) n w))) n l w := fun w => by
    show Cert.NodePool.sharePart (fun n w => k0_pay3 (F := Ideal) x1 (ix2 n w))
      (fun n w => k0_pay4 (F := Ideal) x2 (ix2 n w)) n l w = _
    rw [h1, h2]
  unfold shareAfter28
  rw [pay15_apply, pay13_apply, pay10_apply]
  have h6 : k0_pay6 (F := Ideal) x1
      = extractStridedSlice S256x1 ![0, 2] (k0_pay3 (F := Ideal) x1) slices_S256x30_o0_2_S256x1 := rfl
  rw [h6, pay7_apply, pay5_apply]
  simp only [hp, Finset.sum_range_succ, Finset.sum_range_zero]

/-- The 29th word's test against token l. -/
theorem word28_names (v18 : IVec S256x30 32) (n : Fin 256) (l : Fin 512) :
    k0_pay16 (F := Ideal) v18 (iota .tc S256x512 32 [1] iota_S256x512_d1_w32) (ix2 n l) = Cert.NodePool.names (v18 (ix2 n (28 : Fin 30))) l := by
  unfold k0_pay16
  show FloatOps.sitofp (F := Ideal) .f32 ((IntOp.cmpi .eq
      (broadcastTo S256x512 (extractStridedSlice S256x1 ![0, 28] v18 slices_S256x30_o0_28_S256x1)
        broadcasts_S256x1_S256x512 (ix2 n l))
      (iota .tc S256x512 32 [1] iota_S256x512_d1_w32 (ix2 n l))).setWidth 32) = _
  rw [col_apply v18 28 slices_S256x30_o0_28_S256x1 broadcasts_S256x1_S256x512 (by decide), iota_single_apply]
  rfl

/-- The 29th word's weight, laid along the tokens. -/
theorem word28_weight (v21 : FVec Ideal S256x30 .f32) (n : Fin 256) (l : Fin 512) :
    k0_pay17 (F := Ideal) v21 (ix2 n l) = v21 (ix2 n (28 : Fin 30)) := by
  unfold k0_pay17
  exact col_apply v21 28 slices_S256x30_o0_28_S256x1 broadcasts_S256x1_S256x512 (by decide) n l

end Cert.KernelIdeal.Block

end
-- ==== Proof.KBlock.lean ====
/-
  One block of the kernel's output, read at a node. At a grid point the body receives one batch row's article block,
  its node index and mask blocks, and the (whole) weight arrays; entry (0, 0, n) of what it stores is node n's score,
  computed from the pooled sum taken token by token: the share array the body accumulates word by word is the spec's
  `share`, the projected tokens are the spec's `token`, and the tail of the body is the spec's `score`.
-/
import proofs.«430724_j51539607552910_3_alg».proof.Proof.Gen.KernelIdeal.Frame
import proofs.«430724_j51539607552910_3_alg».proof.Proof.Spec
import proofs.«430724_j51539607552910_3_alg».proof.Proof.KToken
import proofs.«430724_j51539607552910_3_alg».proof.Proof.KHead
import proofs.«430724_j51539607552910_3_alg».proof.Proof.KShare
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

theorem origin3 : (![0, 0, 0] : Fin 3 → Nat) = fun _ => 0 := funext fun a => by fin_cases a <;> rfl
theorem origin2 : (![0, 0] : Fin 2 → Nat) = fun _ => 0 := funext fun a => by fin_cases a <;> rfl
theorem origin1 : (![0] : Fin 1 → Nat) = fun _ => 0 := funext fun a => by fin_cases a <;> rfl

/-- The last two words' parts, spelt out. -/
theorem sharePart_28 (ix : Fin 256 → Fin 30 → BitVec 32) (wt : Fin 256 → Fin 30 → EReal) (n : Fin 256) (l : Fin 512) :
    Cert.NodePool.sharePart ix wt n l 28 = wt n (28 : Fin 30) * Cert.NodePool.names (ix n (28 : Fin 30)) l := by
  unfold Cert.NodePool.sharePart
  rw [dif_pos (by decide : (28 : ℕ) < 30)]
  rfl

theorem sharePart_29 (ix : Fin 256 → Fin 30 → BitVec 32) (wt : Fin 256 → Fin 30 → EReal) (n : Fin 256) (l : Fin 512) :
    Cert.NodePool.sharePart ix wt n l 29 = wt n (29 : Fin 30) * Cert.NodePool.names (ix n (29 : Fin 30)) l := by
  unfold Cert.NodePool.sharePart
  rw [dif_pos (by decide : (29 : ℕ) < 30)]
  rfl

/-- The full share: the running value after 28 words plus the parts of words 28 and 29. -/
theorem share_assembled (x1 x2 : IVec S1x256x30 32) (n : Fin 256) (l : Fin 512) :
    (shareAfter28 x1 x2 (ix2 n l)
        + k0_pay17 (F := Ideal) (k0_pay4 (F := Ideal) x2) (ix2 n l)
          * k0_pay16 (F := Ideal) (k0_pay3 (F := Ideal) x1) (iota .tc S256x512 32 [1] iota_S256x512_d1_w32) (ix2 n l))
      + k0_pay4 (F := Ideal) x2 (ix2 n (29 : Fin 30)) * Cert.NodePool.names (k0_pay3 (F := Ideal) x1 (ix2 n (29 : Fin 30))) l
    = Cert.NodePool.share (fun n w => x1 (ix3 (0 : Fin 1) n w)) (fun n w => Cert.NodePool.weight (x2 (ix3 (0 : Fin 1) n w))) n l := by
  rw [Cert.NodePool.share_eq_sum_range, Finset.sum_range_succ, Finset.sum_range_succ, sharePart_28, sharePart_29,
    shareAfter28_apply, word28_weight, word28_names, mask_weights, mask_weights, index_words, index_words]

/-- A [1, 256] row as a [1, 1, 256] block, at (0, 0, n). -/
theorem row_as_block (v : FVec Ideal S1x256 .f32) (n : Fin 256) :
    k0_pay1 (F := Ideal) v (ix3 (0 : Fin 1) (0 : Fin 1) n) = v (ix2 (0 : Fin 1) n) := by
  unfold k0_pay1
  refine shapeCast_apply v shapeCasts_S1x256_S1x1x256 _ _ ?_
  rw [Shape.rowMajor_val_three, Shape.rowMajor_val_two]
  show (0 * 1 + 0) * 256 + n.val = 0 * 256 + n.val
  omega

/-- THE BLOCK'S VALUE at a node. -/
theorem block_value (x0 : FVec Ideal S1x512x3072 .f32) (x1 x2 : IVec S1x256x30 32) (x3 : FVec Ideal S3072x300 .bf16)
    (x4 : FVec Ideal S300 .f32) (x5 : FVec Ideal S1 .f32) (x6 : FVec Ideal S300x256 .bf16) (x7 : FVec Ideal S256 .f32)
    (x8 : FVec Ideal S256x1 .bf16) (x9 : FVec Ideal S1 .f32) (n : Fin 256) :
    out0_10 (F := Ideal) x0 x1 x2 x3 x4 x5 x6 x7 x8 x9 (ix3 (0 : Fin 1) (0 : Fin 1) n)
      = Cert.NodePool.score
          (Cert.NodePool.pooledByToken (fun l k => x0 (ix3 (0 : Fin 1) l k)) (fun e k => x3 (ix2 k e)) (fun e => x4 (ix1 e))
            (x5 (ix1 (0 : Fin 1))) (fun n w => x1 (ix3 (0 : Fin 1) n w)) (fun n w => Cert.NodePool.weight (x2 (ix3 (0 : Fin 1) n w))))
          (fun n w => Cert.NodePool.weight (x2 (ix3 (0 : Fin 1) n w)))
          (fun h e => x6 (ix2 e h)) (fun h => x7 (ix1 h)) (fun h => x8 (ix2 h (0 : Fin 1))) (x9 (ix1 (0 : Fin 1))) n := by
  unfold out0_10
  rw [View.canon_unit_zero origin3]
  simp only [View.ld_unit_zero (S := S1x512x3072) origin3, View.ld_unit_zero (S := S3072x300) origin2,
    View.ld_unit_zero (S := S300) origin1, View.ld_unit_zero (S := S1) origin1, View.ld_unit_zero (S := S1x256x30) origin3,
    View.ld_unit_zero (S := S300x256) origin2, View.ld_unit_zero (S := S256) origin1, View.ld_unit_zero (S := S256x1) origin2]
  refine (row_as_block _ n).trans ?_
  refine (head_payload (k0_pay2 (F := Ideal) x0 x3 x4 x5) (k0_pay3 (F := Ideal) x1) (k0_pay4 (F := Ideal) x2)
    (shareAfter28 x1 x2)
    (k0_pay16 (F := Ideal) (k0_pay3 (F := Ideal) x1) (iota .tc S256x512 32 [1] iota_S256x512_d1_w32))
    (k0_pay17 (F := Ideal) (k0_pay4 (F := Ideal) x2)) x6 x7 x8 x9 n).trans ?_
  have hp : (fun (n : Fin 256) (e : Fin 300) => ∑ l : Fin 512,
        ((shareAfter28 x1 x2 (ix2 n l)
            + k0_pay17 (F := Ideal) (k0_pay4 (F := Ideal) x2) (ix2 n l)
              * k0_pay16 (F := Ideal) (k0_pay3 (F := Ideal) x1) (iota .tc S256x512 32 [1] iota_S256x512_d1_w32) (ix2 n l))
          + k0_pay4 (F := Ideal) x2 (ix2 n (29 : Fin 30)) * Cert.NodePool.names (k0_pay3 (F := Ideal) x1 (ix2 n (29 : Fin 30))) l)
        * k0_pay2 (F := Ideal) x0 x3 x4 x5 (ix2 l e))
      = Cert.NodePool.pooledByToken (fun l k => x0 (ix3 (0 : Fin 1) l k)) (fun e k => x3 (ix2 k e)) (fun e => x4 (ix1 e))
          (x5 (ix1 (0 : Fin 1))) (fun n w => x1 (ix3 (0 : Fin 1) n w)) (fun n w => Cert.NodePool.weight (x2 (ix3 (0 : Fin 1) n w))) := by
    funext n e
    unfold Cert.NodePool.pooledByToken
    exact Finset.sum_congr rfl fun l _ => by rw [share_assembled, token_payload]
  have hw : (fun (n : Fin 256) (w : Fin 30) => k0_pay4 (F := Ideal) x2 (ix2 n w))
      = fun n w => Cert.NodePool.weight (x2 (ix3 (0 : Fin 1) n w)) := by
    funext n w
    exact mask_weights x2 n w
  rw [hp, hw]

end Cert.KernelIdeal.Block

end
-- ==== Proof.KGrid.lean ====
/-
  The grid of the one pallas_call: 16 points, one per batch row. The article, node-index, mask and output windows move
  with the point along their first axis and stay at block 0 on the others; every other window stays at block 0.
-/
import proofs.«430724_j51539607552910_3_alg».proof.Proof.Gen.KernelIdeal.Frame

noncomputable section

namespace Cert.KernelIdeal.Whole

open Cert.KernelIdeal Cert.KernelIdeal.Gen Idealize.ShloMosaic

/-- The printed index maps, decided over the grid. -/
theorem idx_facts : ∀ t : Fin cfg0.N,
    win0_0.index t (0 : Fin 3) = win0_10.index t (0 : Fin 3) ∧ win0_0.index t (1 : Fin 3) = 0 ∧ win0_0.index t (2 : Fin 3) = 0
    ∧ win0_1.index t (0 : Fin 3) = win0_10.index t (0 : Fin 3) ∧ win0_1.index t (1 : Fin 3) = 0 ∧ win0_1.index t (2 : Fin 3) = 0
    ∧ win0_2.index t (0 : Fin 3) = win0_10.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (1 : Fin 3) = 0 ∧ win0_10.index t (2 : Fin 3) = 0 ∧ win0_10.index t (0 : Fin 3) < 16 :=
  (by decide +kernel : ∀ t : Fin grid0.N, _)

/-- Every batch row is some point's. -/
theorem idx_onto : ∀ q : Fin 16, ∃ t : Fin cfg0.N, win0_10.index t = ![q.val, 0, 0] :=
  (by decide +kernel : ∀ q : Fin 16, ∃ t : Fin grid0.N, win0_10.index t = ![q.val, 0, 0])

/-- The batch row a grid point works on. -/
def rowOf (t : Fin cfg0.N) : Fin 16 := ⟨win0_10.index t (0 : Fin 3), (idx_facts t).2.2.2.2.2.2.2.2.2.2.2.2.2.2.2.2.2.2.2.2.2⟩

theorem rowOf_val (t : Fin cfg0.N) : (rowOf t).val = win0_10.index t (0 : Fin 3) := rfl

end Cert.KernelIdeal.Whole

end
-- ==== Proof.KWindows.lean ====
/-
  The blocks of the windows that stage an argument array itself, read at an entry: the article, node-index and mask
  blocks at a grid point are row `rowOf t` of their arrays; the projection's bias, the slope, the first layer's bias and
  the second layer's bias are staged whole, so their blocks are those arrays.
-/
import proofs.«430724_j51539607552910_3_alg».proof.Proof.Gen.KernelIdeal.Frame
import proofs.«430724_j51539607552910_3_alg».proof.Proof.KGrid
import Idealize.ShloMosaic.Lib.ValueIdx
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

theorem articles_block (c : Dev nD) (t : Fin cfg0.N) (l : Fin 512) (k : Fin 3072) :
    iblk m c 0 t (ix3 (0 : Fin 1) l k) = m ((c : Thread nD τ).loc main_arg0) (ix3 (rowOf t) l k) := by
  -- the block is the view's embedding of the entry into the array, and the array is the argument as launched
  show V m c main_arg0 (((cfg0.win 0).blk t).view.emb (ix3 (0 : Fin 1) l k)) = _
  rw [V_main_arg0]
  refine congrArg _ ?_
  funext a; apply Fin.ext
  obtain ⟨a0, a1, a2, b0, b1, b2, c0, c1, c2, -, -, d0, s0, -, -, f0, -, -, g0, -, -, -⟩ := idx_facts t
  -- per axis: the block's number times the block's size, plus the coordinate inside the block
  match a with
  | ⟨0, _⟩ => show win0_0.index t (0 : Fin 3) * 1 + 1 * 0 = (rowOf t).val; rw [rowOf_val]; omega
  | ⟨1, _⟩ => show win0_0.index t (1 : Fin 3) * 512 + 1 * l.val = l.val; omega
  | ⟨2, _⟩ => show win0_0.index t (2 : Fin 3) * 3072 + 1 * k.val = k.val; omega

theorem index_block (c : Dev nD) (t : Fin cfg0.N) (n : Fin 256) (w : Fin 30) :
    iblk m c 1 t (ix3 (0 : Fin 1) n w) = m ((c : Thread nD τ).loc main_arg1) (ix3 (rowOf t) n w) := by
  -- the block is the view's embedding of the entry into the array, and the array is the argument as launched
  show V m c main_arg1 (((cfg0.win 1).blk t).view.emb (ix3 (0 : Fin 1) n w)) = _
  rw [V_main_arg1]
  refine congrArg _ ?_
  funext a; apply Fin.ext
  obtain ⟨a0, a1, a2, b0, b1, b2, c0, c1, c2, -, -, d0, s0, -, -, f0, -, -, g0, -, -, -⟩ := idx_facts t
  -- per axis: the block's number times the block's size, plus the coordinate inside the block
  match a with
  | ⟨0, _⟩ => show win0_1.index t (0 : Fin 3) * 1 + 1 * 0 = (rowOf t).val; rw [rowOf_val]; omega
  | ⟨1, _⟩ => show win0_1.index t (1 : Fin 3) * 256 + 1 * n.val = n.val; omega
  | ⟨2, _⟩ => show win0_1.index t (2 : Fin 3) * 30 + 1 * w.val = w.val; omega

theorem mask_block (c : Dev nD) (t : Fin cfg0.N) (n : Fin 256) (w : Fin 30) :
    iblk m c 2 t (ix3 (0 : Fin 1) n w) = m ((c : Thread nD τ).loc main_arg2) (ix3 (rowOf t) n w) := by
  -- the block is the view's embedding of the entry into the array, and the array is the argument as launched
  show V m c main_arg2 (((cfg0.win 2).blk t).view.emb (ix3 (0 : Fin 1) n w)) = _
  rw [V_main_arg2]
  refine congrArg _ ?_
  funext a; apply Fin.ext
  obtain ⟨a0, a1, a2, b0, b1, b2, c0, c1, c2, -, -, d0, s0, -, -, f0, -, -, g0, -, -, -⟩ := idx_facts t
  -- per axis: the block's number times the block's size, plus the coordinate inside the block
  match a with
  | ⟨0, _⟩ => show win0_2.index t (0 : Fin 3) * 1 + 1 * 0 = (rowOf t).val; rw [rowOf_val]; omega
  | ⟨1, _⟩ => show win0_2.index t (1 : Fin 3) * 256 + 1 * n.val = n.val; omega
  | ⟨2, _⟩ => show win0_2.index t (2 : Fin 3) * 30 + 1 * w.val = w.val; omega

theorem projB_block (c : Dev nD) (t : Fin cfg0.N) (e : Fin 300) :
    iblk m c 4 t (ix1 e) = m ((c : Thread nD τ).loc main_arg6) (ix1 e) := by
  -- staged whole: the one block is block 0, so an entry of the block is the same entry of the array
  show V m c main_arg6 (((cfg0.win 4).blk t).view.emb (ix1 e)) = _
  rw [V_main_arg6]
  refine congrArg _ ?_
  funext a; apply Fin.ext
  obtain ⟨a0, a1, a2, b0, b1, b2, c0, c1, c2, -, -, d0, s0, -, -, f0, -, -, g0, -, -, -⟩ := idx_facts t
  match a with
  | ⟨0, _⟩ => show win0_4.index t (0 : Fin 1) * 300 + 1 * e.val = e.val; omega

theorem slope_block (c : Dev nD) (t : Fin cfg0.N) :
    iblk m c 5 t (ix1 (0 : Fin 1)) = m ((c : Thread nD τ).loc main_arg7) (ix1 (0 : Fin 1)) := by
  -- staged whole: the one block is block 0, so an entry of the block is the same entry of the array
  show V m c main_arg7 (((cfg0.win 5).blk t).view.emb (ix1 (0 : Fin 1))) = _
  rw [V_main_arg7]
  refine congrArg _ ?_
  funext a; apply Fin.ext
  obtain ⟨a0, a1, a2, b0, b1, b2, c0, c1, c2, -, -, d0, s0, -, -, f0, -, -, g0, -, -, -⟩ := idx_facts t
  match a with
  | ⟨0, _⟩ => show win0_5.index t (0 : Fin 1) * 1 + 1 * 0 = 0; omega

theorem b1_block (c : Dev nD) (t : Fin cfg0.N) (h : Fin 256) :
    iblk m c 7 t (ix1 h) = m ((c : Thread nD τ).loc main_arg9) (ix1 h) := by
  -- staged whole: the one block is block 0, so an entry of the block is the same entry of the array
  show V m c main_arg9 (((cfg0.win 7).blk t).view.emb (ix1 h)) = _
  rw [V_main_arg9]
  refine congrArg _ ?_
  funext a; apply Fin.ext
  obtain ⟨a0, a1, a2, b0, b1, b2, c0, c1, c2, -, -, d0, s0, -, -, f0, -, -, g0, -, -, -⟩ := idx_facts t
  match a with
  | ⟨0, _⟩ => show win0_7.index t (0 : Fin 1) * 256 + 1 * h.val = h.val; omega

theorem b2_block (c : Dev nD) (t : Fin cfg0.N) :
    iblk m c 9 t (ix1 (0 : Fin 1)) = m ((c : Thread nD τ).loc main_arg11) (ix1 (0 : Fin 1)) := by
  -- staged whole: the one block is block 0, so an entry of the block is the same entry of the array
  show V m c main_arg11 (((cfg0.win 9).blk t).view.emb (ix1 (0 : Fin 1))) = _
  rw [V_main_arg11]
  refine congrArg _ ?_
  funext a; apply Fin.ext
  obtain ⟨a0, a1, a2, b0, b1, b2, c0, c1, c2, -, -, d0, s0, -, -, f0, -, -, g0, -, -, -⟩ := idx_facts t
  match a with
  | ⟨0, _⟩ => show win0_9.index t (0 : Fin 1) * 1 + 1 * 0 = 0; omega

end Cert.KernelIdeal.Whole

end
-- ==== Proof.KWeights.lean ====
/-
  The blocks of the three weight windows, read at an entry. Each stages an array the host lines before the call form
  from an argument: the transpose of the projection's weights, of the first layer's and of the second layer's (the
  change of float format that follows each is the identity at the ideal values). Staged whole, the block at (k, e) is
  the argument at (e, k).
-/
import proofs.«430724_j51539607552910_3_alg».proof.Proof.Gen.KernelIdeal.Frame
import proofs.«430724_j51539607552910_3_alg».proof.Proof.KGrid
import Idealize.ShloMosaic.Lib.ValueIdx
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The array window 3 stages: the transpose of the projection's weights, its change of float format the identity. -/
private theorem V_main_v1 (c : Dev nD) :
    (V m c main_v1 : S3072x300.Idx → EReal)
      = truncf (F := Ideal) .bf16 (transpose S3072x300 [1, 0] (m ((c : Thread nD τ).loc main_arg5))
          transposes_S300x3072_S3072x300_1_0) bitsLt_bf16_f32 := by
  show StableHlo.after hostOps0 (fun b => m (c, b)) (Proc.devRef .tc main_v1) = _
  after_results

/-- The array window 6 stages: the transpose of the first layer's weights. -/
private theorem V_main_v3 (c : Dev nD) :
    (V m c main_v3 : S300x256.Idx → EReal)
      = truncf (F := Ideal) .bf16 (transpose S300x256 [1, 0] (m ((c : Thread nD τ).loc main_arg8))
          transposes_S256x300_S300x256_1_0) bitsLt_bf16_f32 := by
  show StableHlo.after hostOps0 (fun b => m (c, b)) (Proc.devRef .tc main_v3) = _
  after_results

/-- The array window 8 stages: the transpose of the second layer's weights. -/
private theorem V_main_v5 (c : Dev nD) :
    (V m c main_v5 : S256x1.Idx → EReal)
      = truncf (F := Ideal) .bf16 (transpose S256x1 [1, 0] (m ((c : Thread nD τ).loc main_arg10))
          transposes_S1x256_S256x1_1_0) bitsLt_bf16_f32 := by
  show StableHlo.after hostOps0 (fun b => m (c, b)) (Proc.devRef .tc main_v5) = _
  after_results

theorem projW_block (c : Dev nD) (t : Fin cfg0.N) (k : Fin 3072) (e : Fin 300) :
    iblk m c 3 t (ix2 k e) = m ((c : Thread nD τ).loc main_arg5) (ix2 e k) := by
  have hemb : ((cfg0.win 3).blk t).view.emb (ix2 k e) = ix2 k e := by
    funext a; apply Fin.ext
    obtain ⟨-, -, -, -, -, -, -, -, -, h0, h1, -⟩ := idx_facts t
    match a with
    | ⟨0, _⟩ => show win0_3.index t (0 : Fin 2) * 3072 + 1 * k.val = k.val; omega
    | ⟨1, _⟩ => show win0_3.index t (1 : Fin 2) * 300 + 1 * e.val = e.val; omega
  show V m c main_v1 (((cfg0.win 3).blk t).view.emb (ix2 k e)) = _
  rw [hemb, V_main_v1]
  exact transpose_apply [1, 0] _ transposes_S300x3072_S3072x300_1_0 (ix2 k e) (ix2 e k)
    (fun b => by match b with | ⟨0, _⟩ => rfl | ⟨1, _⟩ => rfl)

theorem w1_block (c : Dev nD) (t : Fin cfg0.N) (e : Fin 300) (h : Fin 256) :
    iblk m c 6 t (ix2 e h) = m ((c : Thread nD τ).loc main_arg8) (ix2 h e) := by
  have hemb : ((cfg0.win 6).blk t).view.emb (ix2 e h) = ix2 e h := by
    funext a; apply Fin.ext
    obtain ⟨-, -, -, -, -, -, -, -, -, -, -, -, -, h0, h1, -⟩ := idx_facts t
    match a with
    | ⟨0, _⟩ => show win0_6.index t (0 : Fin 2) * 300 + 1 * e.val = e.val; omega
    | ⟨1, _⟩ => show win0_6.index t (1 : Fin 2) * 256 + 1 * h.val = h.val; omega
  show V m c main_v3 (((cfg0.win 6).blk t).view.emb (ix2 e h)) = _
  rw [hemb, V_main_v3]
  exact transpose_apply [1, 0] _ transposes_S256x300_S300x256_1_0 (ix2 e h) (ix2 h e)
    (fun b => by match b with | ⟨0, _⟩ => rfl | ⟨1, _⟩ => rfl)

theorem w2_block (c : Dev nD) (t : Fin cfg0.N) (h : Fin 256) :
    iblk m c 8 t (ix2 h (0 : Fin 1)) = m ((c : Thread nD τ).loc main_arg10) (ix2 (0 : Fin 1) h) := by
  have hemb : ((cfg0.win 8).blk t).view.emb (ix2 h (0 : Fin 1)) = ix2 h (0 : Fin 1) := by
    funext a; apply Fin.ext
    obtain ⟨-, -, -, -, -, -, -, -, -, -, -, -, -, -, -, -, h0, h1, -⟩ := idx_facts t
    match a with
    | ⟨0, _⟩ => show win0_8.index t (0 : Fin 2) * 256 + 1 * h.val = h.val; omega
    | ⟨1, _⟩ => show win0_8.index t (1 : Fin 2) * 1 + 1 * (0 : Fin 1).val = (0 : Fin 1).val; omega
  show V m c main_v5 (((cfg0.win 8).blk t).view.emb (ix2 h (0 : Fin 1))) = _
  rw [hemb, V_main_v5]
  exact transpose_apply [1, 0] _ transposes_S1x256_S256x1_1_0 (ix2 h (0 : Fin 1)) (ix2 (0 : Fin 1) h)
    (fun b => by match b with | ⟨0, _⟩ => rfl | ⟨1, _⟩ => rfl)

end Cert.KernelIdeal.Whole

end
-- ==== Proof.KArray.lean ====
/-
  The kernel program's result as one function of its argument arrays. Grid point t stores, as block t of the call's
  [16, 1, 256] output array, the scores of batch row `rowOf t`; the 16 blocks tile the array, so the array after the call
  holds at (b, 0, n) node n's score in row b, and the host line after the call only drops the unit axis. The scores are
  the spec's `result` with the pooled sum taken token by token.
-/
import proofs.«430724_j51539607552910_3_alg».proof.Proof.Gen.KernelIdeal.Frame
import proofs.«430724_j51539607552910_3_alg».proof.Proof.Spec
import proofs.«430724_j51539607552910_3_alg».proof.Proof.SpecWhole
import proofs.«430724_j51539607552910_3_alg».proof.Proof.KBlock
import proofs.«430724_j51539607552910_3_alg».proof.Proof.KGrid
import proofs.«430724_j51539607552910_3_alg».proof.Proof.KWindows
import proofs.«430724_j51539607552910_3_alg».proof.Proof.KWeights
import Idealize.ShloMosaic.Lib.ValueIdx
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Entry (b, n) of the result, from the launch memory's argument arrays. -/
def resultOf (c : Dev nD) (b : Fin 16) (n : Fin 256) : EReal :=
  Cert.NodePool.result Cert.NodePool.pooledByToken (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) b n

/-- What the call's output array ends holding: at (b, 0, n) the score of node n in row b. -/
def blockArray (c : Dev nD) : S16x1x256.Idx → EReal :=
  fun i => resultOf m c ⟨(i 0).val, (i 0).isLt⟩ ⟨(i 2).val, (i 2).isLt⟩

/-- What the program returns: at (b, n) the score of node n in row b. -/
def resultArray (c : Dev nD) : S16x256.Idx → EReal :=
  fun j => resultOf m c ⟨(j 0).val, (j 0).isLt⟩ ⟨(j 1).val, (j 1).isLt⟩

/-- WHAT POINT t WRITES BACK is block t of `blockArray`. -/
theorem flushed_eq (c : Dev nD) (t : Fin cfg0.N) :
    (dats m 0 c).flushed 10 t = ((cfg0.win 10).blk t).view.read (Elt Ideal) (blockArray m c) := by
  show (cfg0.win 10).cut (grid0.coords t) ((dats m 0 c).after 10 t) = _
  rw [after0_10]
  funext j
  obtain ⟨u0, u1, n, rfl⟩ : ∃ (u0 : Fin 1) (u1 : Fin 1) (n : Fin 256), j = ix3 u0 u1 n := ⟨j 0, j 1, j 2, eq_ix3 j⟩
  obtain rfl : u0 = 0 := Subsingleton.elim _ _
  obtain rfl : u1 = 0 := Subsingleton.elim _ _
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) (0 : Fin 1) n)
      = blockArray m c (((cfg0.win 10).blk t).view.emb (ix3 (0 : Fin 1) (0 : Fin 1) n))
  refine (Cert.KernelIdeal.Block.block_value (iblk m c 0 t) (iblk m c 1 t) (iblk m c 2 t) (iblk m c 3 t) (iblk m c 4 t) (iblk m c 5 t) (iblk m c 6 t) (iblk m c 7 t) (iblk m c 8 t) (iblk m c 9 t) n).trans ?_
  have hemb : ((cfg0.win 10).blk t).view.emb (ix3 (0 : Fin 1) (0 : Fin 1) n) = ix3 (rowOf t) (0 : Fin 1) n := by
    funext a; apply Fin.ext
    obtain ⟨-, -, -, -, -, -, -, -, -, -, -, -, -, -, -, -, -, -, -, e1, e2, -⟩ := idx_facts t
    match a with
    | ⟨0, _⟩ => show win0_10.index t (0 : Fin 3) * 1 + 1 * 0 = win0_10.index t (0 : Fin 3); omega
    | ⟨1, _⟩ => show win0_10.index t (1 : Fin 3) * 1 + 1 * 0 = 0; omega
    | ⟨2, _⟩ => show win0_10.index t (2 : Fin 3) * 256 + 1 * n.val = n.val; omega
  refine Eq.trans ?_ (congrArg (blockArray m c) hemb).symm
  show _ = Cert.NodePool.result Cert.NodePool.pooledByToken (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (rowOf t) n
  unfold Cert.NodePool.result
  exact Cert.NodePool.score_congr
    (Cert.NodePool.pooledByToken_congr (fun l k => articles_block m c t l k) (fun e k => projW_block m c t k e)
      (fun e => projB_block m c t e) (slope_block m c t) (fun n w => index_block m c t n w)
      (fun n w => congrArg Cert.NodePool.weight (mask_block m c t n w)))
    (fun n w => congrArg Cert.NodePool.weight (mask_block m c t n w))
    (fun h e => w1_block m c t e h) (fun h => b1_block m c t h) (fun h => w2_block m c t h) (b2_block m c t) n

/-- An index of the array is in point t's block iff each coordinate is in the block's range on its axis. -/
theorem mem_blk (t : Fin cfg0.N) (i : S16x1x256.Idx) :
    i ∈ ((cfg0.win 10).blk t).view.set ↔ ∀ a : Fin 3, win0_10.index t a * S1x1x256.size a ≤ (i a).val ∧ (i a).val < win0_10.index t a * S1x1x256.size a + S1x1x256.size a := by
  show i ∈ ((View.whole main_v6).slice (win0_10.rect t)).set ↔ _
  rw [View.set_slice_whole, Rect.mem_set_unit]
  exact Iff.rfl

/-- Every entry of the output array is in the block of the point that works on its batch row. -/
theorem cover (i : S16x1x256.Idx) :
    ∃ t : Fin cfg0.N, (cfg0.win 10).flush t = true ∧ i ∈ ((cfg0.win 10).blk t).view.set := by
  have hi0 : (i 0).val < 16 := (i 0).isLt
  have hi1 : (i 1).val < 1 := (i 1).isLt
  have hi2 : (i 2).val < 256 := (i 2).isLt
  obtain ⟨t, ht⟩ := idx_onto ⟨(i 0).val, hi0⟩
  have q0 : win0_10.index t (0 : Fin 3) = (i 0).val := congrFun ht 0
  have q1 : win0_10.index t (1 : Fin 3) = 0 := congrFun ht 1
  have q2 : win0_10.index t (2 : Fin 3) = 0 := congrFun ht 2
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 256 ≤ (i 2).val ∧ (i 2).val < win0_10.index t (2 : Fin 3) * 256 + 256; omega

/-- THE OUTPUT ARRAY after the call. -/
theorem final (c : Dev nD) : (dats m 0 c).arrAt 10 cfg0.N = blockArray m c :=
  (dats m 0 c).arrAt_eq_of_cover 10 (blockArray m c) (fun t _ => flushed_eq m c t) (cover)

/-- The host line after the call drops the unit axis: the program's result from the call's output array. -/
theorem tail_eq (c : Dev nD) :
    Pipeline.afterTail₀ cfgs (dats m) 0 (V0 m) [hostOps1] c main_v7 = resultArray m c := by
  unfold Pipeline.afterTail₀
  show StableHlo.after hostOps1 _ (Proc.devRef .tc main_v7) = _
  after_results
  funext j
  obtain ⟨b, n, rfl⟩ : ∃ (b : Fin 16) (n : Fin 256), j = ix2 b n := ⟨j 0, j 1, eq_ix2 j⟩
  refine (shapeCast_apply _ shapeCasts_S16x1x256_S16x256 (ix2 b n) (ix3 b (0 : Fin 1) n) ?_).trans ?_
  · rw [Shape.rowMajor_val_three, Shape.rowMajor_val_two]
    show (b.val * 1 + 0) * 256 + n.val = b.val * 256 + n.val
    omega
  · have hA := Pipeline.withArrays_arr spec0 launch0.win.arr_inj c (V0 m c) (fun w => (dats m 0 c).arrAt w (cfgs 0).N) (10 : Fin 11)
    exact congrFun (hA.trans (final m c)) (ix3 b (0 : Fin 1) n)

/-- THE RUN, READ: every weakly fair execution of the kernel program terminates with its result array at `resultArray`
    and its arguments unchanged. -/
theorem run : θ_run defs (onTc (τ := τ) (main (F := Ideal))) ⟨m, fun _ => 0, ρ⟩ (fun r => ∀ c : Dev nD,
      r.2.mem ((c.tc : Thread nD τ).loc main_v7) = resultArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      (((h c).2 main_arg8 (Pipeline.mem_restRefs_of main_arg8 (by decide) (by decide))).trans (W_main_arg8 m (dats m) c)),
      ((h c).1 7).trans (((dats m 0 c).arrAt_in 7 rfl _).trans ((A_eq m c 7).trans (V_main_arg9 m c))),
      (((h c).2 main_arg10 (Pipeline.mem_restRefs_of main_arg10 (by decide) (by decide))).trans (W_main_arg10 m (dats m) c)),
      ((h c).1 9).trans (((dats m 0 c).arrAt_in 9 rfl _).trans ((A_eq m c 9).trans (V_main_arg11 m c)))⟩)
    (run_main m ρ)

end Cert.KernelIdeal.Whole

end
-- ==== Proof.LibTakeRows.lean ====
/-
  take_along_axis of whole rows as a gather, read at an index.

  jnp.take_along_axis(x, idx[:, :, None], axis=1) for x : [B, N, D] and idx : [B, M] lowers to a stablehlo.gather
  over start indices of shape [B, M, 1] whose axis 0 is a batching axis of both the operand and the start indices,
  whose axis 1 is collapsed and is the one the start index addresses, and whose axis 2 is the single offset axis,
  taken whole (slice sizes 1, 1, D). Result element (r, j, d) is the operand at (r, i, d) where i is the start index
  idx(r, j, 0) read as a signed integer and clamped into [0, N - 1], as StableHLO's gather clamps every start index.
  General in B, N, D, M and in the index width.
-/
import Idealize.ShloMosaic.PureOps.ShapeOps
import Idealize.ShloMosaic.Lib.ValueIdx

noncomputable section

namespace Idealize.ShloMosaic.TakeRows

open Idealize.ShloMosaic Idealize.ShloMosaic.ValueIdx

variable {α : Type}

/-- Those dimension numbers; a program's own record of them is this one up to its proof field. -/
abbrev dims (B N D M : Nat)
    (wf : GatherDims.WF ⟨3, ![B, N, D]⟩ ⟨3, ![B, M, 1]⟩ ⟨3, ![B, M, D]⟩ [2] [1] [0] [1] [0] 2 ![1, 1, D]) :
    GatherDims ⟨3, ![B, N, D]⟩ ⟨3, ![B, M, 1]⟩ ⟨3, ![B, M, D]⟩ where
  offsetDims := [2]
  collapsedSliceDims := [1]
  operandBatchingDims := [0]
  startIndicesBatchingDims := [0]
  startIndexMap := [1]
  indexVectorDim := 2
  sliceSizes := ![1, 1, D]
  wf := wf

variable {B N D M w : Nat}
  (wf : GatherDims.WF ⟨3, ![B, N, D]⟩ ⟨3, ![B, M, 1]⟩ ⟨3, ![B, M, D]⟩ [2] [1] [0] [1] [0] 2 ![1, 1, D])
  (idx : IVec ⟨3, ![B, M, 1]⟩ w) (r : Fin B) (j : Fin M) (d : Fin D)

/-- On the batching axis the operand is read at the result's batch row. -/
theorem operand_row :
    ((dims B N D M wf).operandIdx (ix3 r j d) idx 0).val = r.val := by
  show (dims B N D M wf).start _ idx 0 + (dims B N D M wf).batchCoord _ 0 + (dims B N D M wf).offCoord _ 0 = r.val
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  unfold GatherDims.batchCoord
  rw [dif_pos (show (0 : Fin 3) ∈ (dims B N D M wf).operandBatchingDims from List.mem_singleton.mpr rfl)]
  rfl

/-- The start index is read at the result's batch row and its position j along the gathered axis. -/
theorem start_site :
    (dims B N D M wf).siIdx (ix3 r j d) ⟨List.idxOf (1 : Fin 3) (dims B N D M wf).startIndexMap,
      List.idxOf_lt_length_iff.2 (List.mem_singleton.mpr rfl)⟩ = ix3 r j (0 : Fin 1) := by
  funext b; refine Fin.ext ?_
  match b with
  | ⟨0, _⟩ => rfl
  | ⟨1, _⟩ => rfl
  | ⟨2, _⟩ => rfl

/-- On the indexed axis the operand is read at the clamped signed start index. -/
theorem operand_col :
    ((dims B N D M wf).operandIdx (ix3 r j d) idx 1).val
      = min (idx (ix3 r j (0 : Fin 1))).toInt.toNat (N - 1) := by
  show (dims B N D M wf).start _ idx 1 + (dims B N D M wf).batchCoord _ 1 + (dims B N D M wf).offCoord _ 1 = _
  rw [GatherDims.batchCoord_eq_zero _ _ _ (fun h => absurd (congrArg Fin.val (List.mem_singleton.mp h)) Nat.one_ne_zero),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (dims B N D M wf).startIndexMap from List.mem_singleton.mpr rfl), start_site]
  rfl

/-- On the offset axis the operand is read at the result's offset. -/
theorem operand_off :
    ((dims B N D M wf).operandIdx (ix3 r j d) idx 2).val = d.val := by
  show (dims B N D M wf).start _ idx 2 + (dims B N D M wf).batchCoord _ 2 + (dims B N D M wf).offCoord _ 2 = d.val
  have h21 : ¬ (2 : Fin 3) = 1 := by decide
  have h20 : ¬ (2 : Fin 3) = 0 := by decide
  have hs : (dims B N D M wf).start (ix3 r j d) idx 2 = 0 := by
    unfold GatherDims.start
    rw [dif_neg (fun h => h21 (List.mem_singleton.mp h))]
  rw [hs, GatherDims.batchCoord_eq_zero _ _ _ (fun h => h20 (List.mem_singleton.mp h)), Nat.zero_add]
  unfold GatherDims.offCoord
  rw [dif_pos ((GatherDims.mem_sKept _ _).mpr
    ⟨fun h => h21 (List.mem_singleton.mp h), fun h => h20 (List.mem_singleton.mp h)⟩)]
  rfl

/-- THE GATHER READ AT (r, j, d). -/
theorem gather_apply (hN : 0 < N) (x : (⟨3, ![B, N, D]⟩ : Shape).Idx → α) :
    Host.gather (dims B N D M wf) x idx (ix3 r j d)
      = x (ix3 r ⟨min (idx (ix3 r j (0 : Fin 1))).toInt.toNat (N - 1), by omega⟩ d) := by
  unfold Host.gather
  congr 1
  funext a
  refine Fin.ext ?_
  match a with
  | ⟨0, _⟩ => exact operand_row wf idx r j d
  | ⟨1, _⟩ => exact operand_col wf idx r j d
  | ⟨2, _⟩ => exact operand_off wf idx r j d

end Idealize.ShloMosaic.TakeRows

end
-- ==== Proof.LibAllOnes.lean ====
/-
  A reduction by "and" of an array of ones.

  A stablehlo.reduce of a one-bit array by "and", started from a one, is one at every result index when every element
  of the array is one: the fold meets only ones. (The converse direction, from the result being one to every element,
  is the library's; this is the direction a mask known to be all true needs.) General in the shapes and axes.
-/
import Idealize.ShloMosaic.PureOps.Reduce

namespace Idealize.ShloMosaic.AllOnes

open Idealize.ShloMosaic

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ q, init q = 1#1) :
    Host.reduce IntOp.andi x init h hu j = 1#1 := by
  rw [Host.reduce_eq_foldl, hi]
  exact foldl_andi_ones x hx _

end Idealize.ShloMosaic.AllOnes
-- ==== Proof.RefValue.lean ====
/-
  The reference read at a result entry: for batch row b and node n, the reference's result is the node's score
  computed from the pooled sum taken word by word, PROVIDED every index word of the node arrays lies in [0, 512): then
  the wrap of negative indices leaves each word as it is, the bounds test passes, and the gathered row is the token
  at the word's position.
-/
import proofs.«430724_j51539607552910_3_alg».proof.Proof.RefRead
import proofs.«430724_j51539607552910_3_alg».proof.Proof.Spec
import proofs.«430724_j51539607552910_3_alg».proof.Proof.LibTakeRows
import proofs.«430724_j51539607552910_3_alg».proof.Proof.LibAllOnes
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.ReadP

/-! ### The token stage -/

private theorem lidx_v0_at (b : Fin 16) (l : Fin 512) (e : Fin 300) (k : Fin 3072) :
    lidx_main_v0 (ix3 b l e) k = ix3 b l k :=
  funext fun a => match a with | ⟨0, _⟩ => rfl | ⟨1, _⟩ => rfl | ⟨2, _⟩ => rfl

private theorem ridx_v0_at (b : Fin 16) (l : Fin 512) (e : Fin 300) (k : Fin 3072) :
    ridx_main_v0 (ix3 b l e) k = ix2 e k :=
  funext fun a => match a with | ⟨0, _⟩ => rfl | ⟨1, _⟩ => rfl

private theorem idx_v1_v2_at (b : Fin 16) (l : Fin 512) (e : Fin 300) :
    idx_main_v1 (idx_main_v2 (ix3 b l e)) = ix1 e :=
  funext fun a => match a with | ⟨0, _⟩ => rfl

/-- The affine projection of token l, coordinate e. -/
private theorem v3_at (x0 : FVec Ideal S16x512x3072 .f32) (x5 : FVec Ideal S300x3072 .f32) (x6 : FVec Ideal S300 .f32)
    (b : Fin 16) (l : Fin 512) (e : Fin 300) :
    val_main_v3 (F := Ideal) x0 x5 x6 (ix3 b l e)
      = (∑ k : Fin 3072, x0 (ix3 b l k) * x5 (ix2 e k)) + x6 (ix1 e) := by
  rw [val_main_v3_apply, val_main_v0_apply, val_main_v2_apply, val_main_v1_apply, idx_v1_v2_at]
  show _ + _ = _
  refine congrArg (· + x6 (ix1 e)) (Finset.sum_congr rfl fun k _ => ?_)
  rw [lidx_v0_at, ridx_v0_at]

/-- The slope, a one-element array read as a scalar. -/
private theorem v6_at (x7 : FVec Ideal S1 .f32) (j : S_.Idx) :
    val_main_v6 (F := Ideal) x7 j = x7 (ix1 (0 : Fin 1)) := by
  unfold val_main_v6
  exact shapeCast_apply x7 shapeCasts_S1_S_ j (ix1 (0 : Fin 1)) rfl

/-- The token stage is the specification's token. -/
private theorem v9_at (x0 : FVec Ideal S16x512x3072 .f32) (x5 : FVec Ideal S300x3072 .f32) (x6 : FVec Ideal S300 .f32)
    (x7 : FVec Ideal S1 .f32) (b : Fin 16) (l : Fin 512) (e : Fin 300) :
    val_main_v9 (F := Ideal) x0 x5 x6 x7 (ix3 b l e)
      = Cert.NodePool.token (fun l k => x0 (ix3 b l k)) (fun e k => x5 (ix2 e k)) (fun e => x6 (ix1 e))
          (x7 (ix1 (0 : Fin 1))) l e := by
  rw [val_main_v9_apply, val_main_v5_apply, val_main_v8_apply, val_main_v7_apply, v6_at, val_main_v4_apply,
    val_main_cst_apply, v3_at]
  rfl

/-! ### The index words: an in-range word passes the wrap and the bounds test -/

/-- A word that is not negative is kept by the wrap of negative indices. -/
private theorem word_keep (w : BitVec 32) (h0 : 0 ≤ w.toInt) :
    Scalar.select (IntOp.cmpi .slt w 0#32) (IntOp.addi w 512#32) w = w := by
  have h : IntOp.cmpi .slt w 0#32 = 0#1 := by
    show BitVec.ofBool (w.slt 0#32) = 0#1
    have : w.slt 0#32 = false := by
      rw [BitVec.slt, decide_eq_false_iff_not]
      have : (0#32 : BitVec 32).toInt = 0 := by decide
      omega
    rw [this]; rfl
  rw [h]; exact select_zero _ _

/-- A word in [0, 512) passes both bounds tests. -/
private theorem word_ok (w : BitVec 32) (h0 : 0 ≤ w.toInt) (h1 : w.toInt < 512) :
    IntOp.andi (IntOp.cmpi .sge w 0#32) (IntOp.cmpi .sle w 511#32) = 1#1 := by
  have ha : IntOp.cmpi .sge w 0#32 = 1#1 := by
    show BitVec.ofBool ((0#32 : BitVec 32).sle w) = 1#1
    have : (0#32 : BitVec 32).sle w = true := by
      rw [BitVec.sle, decide_eq_true_iff]
      have : (0#32 : BitVec 32).toInt = 0 := by decide
      omega
    rw [this]; rfl
  have hb : IntOp.cmpi .sle w 511#32 = 1#1 := by
    show BitVec.ofBool (w.sle 511#32) = 1#1
    have : w.sle 511#32 = true := by
      rw [BitVec.sle, decide_eq_true_iff]
      have : (511#32 : BitVec 32).toInt = 511 := by decide
      omega
    rw [this]; rfl
  rw [ha, hb]; decide

section Stages

variable (x1 : IVec S16x256x30 32) (hix : ∀ i, 0 ≤ (x1 i).toInt ∧ (x1 i).toInt < 512)
include hix

/-- The start index after the wrap is the index word itself. -/
private theorem c1v4_eq (i : S16x7680x1.Idx) :
    val_main_call1_v4 (F := Ideal) x1 i = x1 (idx_main_v10 (idx_main_v11 i)) := by
  rw [val_main_call1_v4_apply, val_main_call1_v1_apply, val_main_call1_v3_apply, val_main_call1_v0_apply,
    val_main_call1_c_apply, val_main_v11_apply, val_main_v10_apply]
  exact word_keep _ (hix _).1

/-- Every start index is in bounds. -/
private theorem c1v10_eq (i : S16x7680x1.Idx) : val_main_call1_v10 (F := Ideal) x1 i = 1#1 := by
  rw [val_main_call1_v10_apply, val_main_call1_v6_apply, val_main_call1_v9_apply, c1v4_eq x1 hix,
    val_main_call1_v5_apply, val_main_call1_c_2_apply, val_main_call1_v8_apply, val_main_call1_v7_apply,
    val_main_call1_c_1_apply]
  exact word_ok _ (hix _).1 (hix _).2

/-- So the bounds mask is all ones. -/
private theorem c1v11_eq (j : S16x7680.Idx) : val_main_call1_v11 (F := Ideal) x1 j = 1#1 := by
  unfold val_main_call1_v11
  exact AllOnes.reduce_andi_ones _ _ _ _ j (c1v10_eq x1 hix) (fun _ => rfl)

/-! ### The gathered rows, the masked rows and the pooled sum -/

/-- The flat index of word w of node n. -/
private def flat (n : Fin 256) (w : Fin 30) : Fin 7680 :=
  ⟨n.val * 30 + w.val, by have := n.isLt; have := w.isLt; omega⟩

omit hix in
private theorem idx_v13_at (b : Fin 16) (n : Fin 256) (w : Fin 30) (e : Fin 300) :
    idx_main_v13 (ix4 b n w e) = ix3 b (flat n w) e :=
  funext fun a => Fin.ext (by
    have hb := b.isLt; have hn := n.isLt; have hw := w.isLt; have he := e.isLt
    match a with
    | ⟨0, _⟩ => show (((b.val * 256 + n.val) * 30 + w.val) * 300 + e.val) / 2304000 = b.val; omega
    | ⟨1, _⟩ => show (((b.val * 256 + n.val) * 30 + w.val) * 300 + e.val) / 300 % 7680 = n.val * 30 + w.val; omega
    | ⟨2, _⟩ => show (((b.val * 256 + n.val) * 30 + w.val) * 300 + e.val) % 300 = e.val; omega)

omit hix in
private theorem idx_v10_at (b : Fin 16) (n : Fin 256) (w : Fin 30) :
    idx_main_v10 (ix2 b (flat n w)) = ix3 b n w :=
  funext fun a => Fin.ext (by
    have hb := b.isLt; have hn := n.isLt; have hw := w.isLt
    match a with
    | ⟨0, _⟩ => show (b.val * 7680 + (n.val * 30 + w.val)) / 7680 = b.val; omega
    | ⟨1, _⟩ => show (b.val * 7680 + (n.val * 30 + w.val)) / 30 % 256 = n.val; omega
    | ⟨2, _⟩ => show (b.val * 7680 + (n.val * 30 + w.val)) % 30 = w.val; omega)

omit hix in
private theorem idx_v11_at (b : Fin 16) (j : Fin 7680) : idx_main_v11 (ix3 b j (0 : Fin 1)) = ix2 b j :=
  funext fun a => match a with | ⟨0, _⟩ => rfl | ⟨1, _⟩ => rfl

/-- The gathered row of word w of node n is the token row at the word's position. -/
private theorem v12_at (x0 : FVec Ideal S16x512x3072 .f32) (x5 : FVec Ideal S300x3072 .f32) (x6 : FVec Ideal S300 .f32)
    (x7 : FVec Ideal S1 .f32) (b : Fin 16) (n : Fin 256) (w : Fin 30) (e : Fin 300) :
    val_main_v12 (F := Ideal) x0 x1 x5 x6 x7 (ix3 b (flat n w) e)
      = val_main_v9 (F := Ideal) x0 x5 x6 x7 (ix3 b (Cert.NodePool.position (x1 (ix3 b n w))) e) := by
  rw [val_main_v12_apply, val_main_call1_v13_apply, c1v11_eq x1 hix, select_one]
  unfold val_main_call1_v12
  refine (TakeRows.gather_apply _ _ b (flat n w) e (by decide) _).trans ?_
  have hw : val_main_call1_v4 (F := Ideal) x1 (ix3 b (flat n w) (0 : Fin 1)) = x1 (ix3 b n w) := by
    rw [c1v4_eq x1 hix, idx_v11_at, idx_v10_at]
  refine congrArg (val_main_v9 (F := Ideal) x0 x5 x6 x7) (funext fun a => ?_)
  match a with
  | ⟨0, _⟩ => rfl
  | ⟨1, _⟩ => exact Fin.ext (congrArg (fun v : BitVec 32 => min v.toInt.toNat 511) hw)
  | ⟨2, _⟩ => rfl

omit hix in
private theorem idx_v15_v16_at (b : Fin 16) (n : Fin 256) (w : Fin 30) (e : Fin 300) :
    idx_main_v15 (idx_main_v16 (ix4 b n w e)) = ix3 b n w :=
  funext fun a => match a with | ⟨0, _⟩ => rfl | ⟨1, _⟩ => rfl | ⟨2, _⟩ => rfl

omit hix in
private theorem idx_v18_at (b : Fin 16) (n : Fin 256) (e : Fin 300) (w : Fin 30) :
    idx_main_v18 (ix3 b n e) w = ix4 b n w e :=
  funext fun a => match a with | ⟨0, _⟩ => rfl | ⟨1, _⟩ => rfl | ⟨2, _⟩ => rfl | ⟨3, _⟩ => rfl

/-- The masked row: the token at the word's position times the word's weight. -/
private theorem v17_at (x0 : FVec Ideal S16x512x3072 .f32) (x2 : IVec S16x256x30 32) (x5 : FVec Ideal S300x3072 .f32)
    (x6 : FVec Ideal S300 .f32) (x7 : FVec Ideal S1 .f32) (b : Fin 16) (n : Fin 256) (w : Fin 30) (e : Fin 300) :
    val_main_v17 (F := Ideal) x0 x1 x2 x5 x6 x7 (ix4 b n w e)
      = Cert.NodePool.token (fun l k => x0 (ix3 b l k)) (fun e k => x5 (ix2 e k)) (fun e => x6 (ix1 e))
          (x7 (ix1 (0 : Fin 1))) (Cert.NodePool.position (x1 (ix3 b n w))) e
        * Cert.NodePool.weight (x2 (ix3 b n w)) := by
  rw [val_main_v17_apply, val_main_v13_apply, idx_v13_at, v12_at x1 hix, v9_at, val_main_v16_apply,
    val_main_v15_apply, val_main_v14_apply, idx_v15_v16_at]
  rfl

/-- The pooled sum of node n, coordinate e, word by word. -/
private theorem v18_at (x0 : FVec Ideal S16x512x3072 .f32) (x2 : IVec S16x256x30 32) (x5 : FVec Ideal S300x3072 .f32)
    (x6 : FVec Ideal S300 .f32) (x7 : FVec Ideal S1 .f32) (b : Fin 16) (n : Fin 256) (e : Fin 300) :
    val_main_v18 (F := Ideal) x0 x1 x2 x5 x6 x7 (ix3 b n e)
      = Cert.NodePool.pooledByWord (fun l k => x0 (ix3 b l k)) (fun e k => x5 (ix2 e k)) (fun e => x6 (ix1 e))
          (x7 (ix1 (0 : Fin 1))) (fun n w => x1 (ix3 b n w)) (fun n w => Cert.NodePool.weight (x2 (ix3 b n w))) n e := by
  rw [val_main_v18_apply, val_main_cst_0_apply]
  show Ideal.ofBits .f32 0x00000000#32 + _ = _
  rw [Ideal.ofBits_zero_f32, zero_add]
  unfold Cert.NodePool.pooledByWord
  exact Finset.sum_congr rfl fun w _ => by rw [idx_v18_at, v17_at x1 hix]

/-! ### The divisor, the mean and the head -/

omit hix in
private theorem idx_v15_v19_at (b : Fin 16) (n : Fin 256) (w : Fin 30) :
    idx_main_v15 (idx_main_v19 (ix3 b n (0 : Fin 1)) w) = ix3 b n w :=
  funext fun a => match a with | ⟨0, _⟩ => rfl | ⟨1, _⟩ => rfl | ⟨2, _⟩ => rfl

omit hix in
/-- The divisor of node n: its total weight, at least 1. -/
private theorem v21_at (x2 : IVec S16x256x30 32) (b : Fin 16) (n : Fin 256) :
    val_main_v21 (F := Ideal) x2 (ix3 b n (0 : Fin 1))
      = Cert.NodePool.divisor (fun n w => Cert.NodePool.weight (x2 (ix3 b n w))) n := by
  rw [val_main_v21_apply, val_main_v19_apply, val_main_cst_1_apply, val_main_v20_apply, val_main_cst_2_apply]
  show max (Ideal.ofBits .f32 0x00000000#32 + _) (Ideal.ofBits .f32 0x3F800000#32) = _
  rw [Ideal.ofBits_zero_f32, zero_add]
  unfold Cert.NodePool.divisor
  refine congrArg (max · (Ideal.ofBits .f32 0x3F800000#32)) (Finset.sum_congr rfl fun w _ => ?_)
  rw [val_main_v15_apply, val_main_v14_apply, idx_v15_v19_at]
  rfl

omit hix in
private theorem idx_v22_at (b : Fin 16) (n : Fin 256) (e : Fin 300) :
    idx_main_v22 (ix3 b n e) = ix3 b n (0 : Fin 1) :=
  funext fun a => match a with | ⟨0, _⟩ => rfl | ⟨1, _⟩ => rfl | ⟨2, _⟩ => rfl

/-- The mean vector of node n. -/
private theorem v23_at (x0 : FVec Ideal S16x512x3072 .f32) (x2 : IVec S16x256x30 32) (x5 : FVec Ideal S300x3072 .f32)
    (x6 : FVec Ideal S300 .f32) (x7 : FVec Ideal S1 .f32) (b : Fin 16) (n : Fin 256) (e : Fin 300) :
    val_main_v23 (F := Ideal) x0 x1 x2 x5 x6 x7 (ix3 b n e)
      = Cert.NodePool.mean
          (Cert.NodePool.pooledByWord (fun l k => x0 (ix3 b l k)) (fun e k => x5 (ix2 e k)) (fun e => x6 (ix1 e))
            (x7 (ix1 (0 : Fin 1))) (fun n w => x1 (ix3 b n w)) (fun n w => Cert.NodePool.weight (x2 (ix3 b n w))))
          (fun n w => Cert.NodePool.weight (x2 (ix3 b n w))) n e := by
  rw [val_main_v23_apply, v18_at x1 hix, val_main_v22_apply, idx_v22_at, v21_at]
  rfl

omit hix in
private theorem lidx_v38_at (b : Fin 16) (n h : Fin 256) (k : Fin 300) :
    lidx_main_v38 (ix3 b n h) k = ix3 b n k :=
  funext fun a => match a with | ⟨0, _⟩ => rfl | ⟨1, _⟩ => rfl | ⟨2, _⟩ => rfl

omit hix in
private theorem ridx_v38_at (b : Fin 16) (n h : Fin 256) (k : Fin 300) :
    ridx_main_v38 (ix3 b n h) k = ix2 h k :=
  funext fun a => match a with | ⟨0, _⟩ => rfl | ⟨1, _⟩ => rfl

omit hix in
private theorem idx_v39_v40_at (b : Fin 16) (n h : Fin 256) :
    idx_main_v39 (idx_main_v40 (ix3 b n h)) = ix1 h :=
  funext fun a => match a with | ⟨0, _⟩ => rfl

/-- The hidden layer of node n, unit h. -/
private theorem v42_at (x0 : FVec Ideal S16x512x3072 .f32) (x2 : IVec S16x256x30 32) (x5 : FVec Ideal S300x3072 .f32)
    (x6 : FVec Ideal S300 .f32) (x7 : FVec Ideal S1 .f32) (x8 : FVec Ideal S256x300 .f32) (x9 : FVec Ideal S256 .f32)
    (b : Fin 16) (n h : Fin 256) :
    val_main_v42 (F := Ideal) x0 x1 x2 x5 x6 x7 x8 x9 (ix3 b n h)
      = Cert.NodePool.hidden
          (Cert.NodePool.pooledByWord (fun l k => x0 (ix3 b l k)) (fun e k => x5 (ix2 e k)) (fun e => x6 (ix1 e))
            (x7 (ix1 (0 : Fin 1))) (fun n w => x1 (ix3 b n w)) (fun n w => Cert.NodePool.weight (x2 (ix3 b n w))))
          (fun n w => Cert.NodePool.weight (x2 (ix3 b n w))) (fun h e => x8 (ix2 h e)) (fun h => x9 (ix1 h)) n h := by
  rw [val_main_v42_apply, val_main_v41_apply, val_main_v38_apply, val_main_v40_apply, val_main_v39_apply,
    idx_v39_v40_at, val_main_call3_v0_apply, val_main_call3_cst_apply]
  show max (_ + x9 (ix1 h)) (Ideal.ofBits .f32 0x00000000#32) = _
  unfold Cert.NodePool.hidden
  refine congrArg (fun z => max (z + x9 (ix1 h)) (Ideal.ofBits .f32 0x00000000#32))
    (Finset.sum_congr rfl fun k _ => ?_)
  rw [lidx_v38_at, ridx_v38_at, v23_at x1 hix]

omit hix in
private theorem lidx_v43_at (b : Fin 16) (n k : Fin 256) :
    lidx_main_v43 (ix3 b n (0 : Fin 1)) k = ix3 b n k :=
  funext fun a => match a with | ⟨0, _⟩ => rfl | ⟨1, _⟩ => rfl | ⟨2, _⟩ => rfl

omit hix in
private theorem ridx_v43_at (b : Fin 16) (n k : Fin 256) :
    ridx_main_v43 (ix3 b n (0 : Fin 1)) k = ix2 (0 : Fin 1) k :=
  funext fun a => match a with | ⟨0, _⟩ => rfl | ⟨1, _⟩ => rfl

omit hix in
private theorem idx_v44_v45_at (b : Fin 16) (n : Fin 256) :
    idx_main_v44 (idx_main_v45 (ix3 b n (0 : Fin 1))) = ix1 (0 : Fin 1) :=
  funext fun a => match a with | ⟨0, _⟩ => rfl

omit hix in
private theorem idx_v47_at (b : Fin 16) (n : Fin 256) : idx_main_v47 (ix2 b n) = ix3 b n (0 : Fin 1) :=
  funext fun a => Fin.ext (by
    have hb := b.isLt; have hn := n.isLt
    match a with
    | ⟨0, _⟩ => show (b.val * 256 + n.val) / 256 = b.val; omega
    | ⟨1, _⟩ => show (b.val * 256 + n.val) / 1 % 256 = n.val; omega
    | ⟨2, _⟩ => rfl)

end Stages

theorem result_value (x0 : FVec Ideal S16x512x3072 .f32) (x1 x2 : IVec S16x256x30 32) (x5 : FVec Ideal S300x3072 .f32)
    (x6 : FVec Ideal S300 .f32) (x7 : FVec Ideal S1 .f32) (x8 : FVec Ideal S256x300 .f32) (x9 : FVec Ideal S256 .f32)
    (x10 : FVec Ideal S1x256 .f32) (x11 : FVec Ideal S1 .f32)
    (hix : ∀ i, 0 ≤ (x1 i).toInt ∧ (x1 i).toInt < 512) (b : Fin 16) (n : Fin 256) :
    Cert.ReferenceIdeal.ReadP.val_main_v47 (F := Ideal) x0 x1 x2 x5 x6 x7 x8 x9 x10 x11 (ix2 b n)
      = Cert.NodePool.score
          (Cert.NodePool.pooledByWord (fun l k => x0 (ix3 b l k)) (fun e k => x5 (ix2 e k)) (fun e => x6 (ix1 e))
            (x7 (ix1 (0 : Fin 1))) (fun n w => x1 (ix3 b n w)) (fun n w => Cert.NodePool.weight (x2 (ix3 b n w))))
          (fun n w => Cert.NodePool.weight (x2 (ix3 b n w)))
          (fun h e => x8 (ix2 h e)) (fun h => x9 (ix1 h)) (fun h => x10 (ix2 (0 : Fin 1) h)) (x11 (ix1 (0 : Fin 1))) n := by
  rw [val_main_v47_apply, idx_v47_at, val_main_v46_apply, val_main_v43_apply, val_main_v45_apply, val_main_v44_apply,
    idx_v44_v45_at]
  show _ + x11 (ix1 (0 : Fin 1)) = _
  unfold Cert.NodePool.score
  refine congrArg (· + x11 (ix1 (0 : Fin 1))) (Finset.sum_congr rfl fun k _ => ?_)
  rw [lidx_v43_at, ridx_v43_at, v42_at x1 hix]

end Cert.ReferenceIdeal.RefValue

end
-- ==== Proof.PreFacts.lean ====
/-
  The precondition read back: when the printed predicate is all ones, the articles, the projection's weights and
  bias and the leaky unit's slope are real numbers (not ±∞), and every node index word lies in [0, 512).
-/
import proofs.«430724_j51539607552910_3_alg».proof.Pre_finite_inputs
import proofs.«430724_j51539607552910_3_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Decode

open Cert.Pre_finite_inputs Idealize.ShloMosaic Idealize.ShloMosaic.ValueIdx

/-- The scalar shape has one index. -/
private instance subsingletonScalarIdx : Subsingleton S_.Idx := ⟨fun _ _ => funext fun d => d.elim0⟩

/-- A truth value written as one bit is 1 exactly when it is true. -/
private theorem ofBool_eq_one {b : Bool} : BitVec.ofBool b = 1#1 ↔ b = true := by cases b <;> decide

/-- An extended real whose absolute value is below the float +∞ is a real number: the pattern 0x7F800000 denotes ⊤,
    and both infinities have absolute value ⊤. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := of_decide_eq_true (ofBool_eq_one.1 h)
  induction x using EReal.rec with
  | bot => simp at hlt
  | coe r => exact ⟨r, rfl⟩
  | top => simp at hlt

/-- One float conjunct read back: when "every |x| is below +∞" reduces to 1, every entry of x is real. -/
private theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ix0 = 1#1) (i : s.Idx) : ∃ r : ℝ, x i = (r : EReal) :=
  real_of_abs_lt_inf (x i) (Host.reduce_andi_all _ _ hr h0 ix0 e i)

/-- The two integer conjuncts read back: every word is at least 0 and below 512 as a signed integer. -/
private theorem range_of_all {s : Shape} {axes : List (Fin s.rank)} (x : IVec s 32)
    (hb : S_.BroadcastsInDim s (![] : Fin 0 → Fin s.rank)) (hr : s.ReducesTo axes S_) (h0 : 0 < S_.numel)
    (e0 : Host.reduce IntOp.andi (cmpi .sge x (broadcastInDim s ![] hb (constantI S_ 32 0#32)))
          (constantI S_ 1 1#1) hr h0 ix0 = 1#1)
    (e1 : Host.reduce IntOp.andi (cmpi .slt x (broadcastInDim s ![] hb (constantI S_ 32 512#32)))
          (constantI S_ 1 1#1) hr h0 ix0 = 1#1) (i : s.Idx) : 0 ≤ (x i).toInt ∧ (x i).toInt < 512 := by
  have a : IntOp.cmpi .sge (x i) 0#32 = 1#1 := Host.reduce_andi_all _ _ hr h0 ix0 e0 i
  have b : IntOp.cmpi .slt (x i) 512#32 = 1#1 := Host.reduce_andi_all _ _ hr h0 ix0 e1 i
  have ha := IntOp.cmpi_sge.1 a
  have hb' := IntOp.cmpi_slt.1 b
  have z0 : (0#32 : BitVec 32).toInt = 0 := by decide
  have z512 : (512#32 : BitVec 32).toInt = 512 := by decide
  rw [z0] at ha
  rw [z512] at hb'
  exact ⟨ha, hb'⟩

/-- A conjunction of two scalar bits that is 1 has both bits 1. -/
private theorem andi_ix0 (a b : IVec S_ 1) (h : andi a b ix0 = 1#1) : a ix0 = 1#1 ∧ b ix0 = 1#1 :=
  IntOp.andi_eq_one.1 h

theorem decoded (x0 : FVec Ideal S16x512x3072 .f32) (x1 x2 : IVec S16x256x30 32) (x3 x4 : IVec S16x512x10 32)
    (x5 : FVec Ideal S300x3072 .f32) (x6 : FVec Ideal S300 .f32) (x7 : FVec Ideal S1 .f32) (x8 : FVec Ideal S256x300 .f32)
    (x9 : FVec Ideal S256 .f32) (x10 : FVec Ideal S1x256 .f32) (x11 : FVec Ideal S1 .f32)
    (h : Cert.Pre_finite_inputs.fn (F := Ideal) x0 x1 x2 x3 x4 x5 x6 x7 x8 x9 x10 x11 = fun _ => 1#1) :
    (∀ i, ∃ r : ℝ, x0 i = (r : EReal)) ∧ (∀ i, ∃ r : ℝ, x5 i = (r : EReal)) ∧ (∀ i, ∃ r : ℝ, x6 i = (r : EReal))
      ∧ (∀ i, ∃ r : ℝ, x7 i = (r : EReal)) ∧ (∀ i, 0 ≤ (x1 i).toInt ∧ (x1 i).toInt < 512) := by
  have e := congrFun h ix0
  dsimp only [fn, fn_part1, fn_part2] at e
  -- the printed predicate is a left-nested conjunction of ten scalar bits: eight "every entry is finite" bits for the
  -- float inputs in order, then "every index word is ≥ 0" and "every index word is < 512"
  obtain ⟨e, hlt⟩ := andi_ix0 _ _ e
  obtain ⟨e, hge⟩ := andi_ix0 _ _ e
  obtain ⟨e, -⟩ := andi_ix0 _ _ e
  obtain ⟨e, -⟩ := andi_ix0 _ _ e
  obtain ⟨e, -⟩ := andi_ix0 _ _ e
  obtain ⟨e, -⟩ := andi_ix0 _ _ e
  obtain ⟨e, h7⟩ := andi_ix0 _ _ e
  obtain ⟨e, h6⟩ := andi_ix0 _ _ e
  obtain ⟨h0, h5⟩ := andi_ix0 _ _ e
  exact ⟨real_of_all x0 _ _ _ h0, real_of_all x5 _ _ _ h5, real_of_all x6 _ _ _ h6, real_of_all x7 _ _ _ h7,
    range_of_all x1 _ _ _ hge hlt⟩

end Cert.Pre_finite_inputs.Decode

end
-- ==== Proof.lean ====
/-
  The certificate of the fused node-scoring kernel against its reference.

  Both programs score the nodes of a batch of articles. Every token of an article is projected from 3072 features to
  300 by an affine map and passed through a leaky unit. A node names 30 token positions, each with an integer weight;
  its vector is the weighted sum of the named tokens' projections divided by max(total weight, 1); its score is an
  affine map to 256 coordinates, the positive part, and an affine map to one number.

  The reference gathers each named token and sums word by word. The kernel never gathers: for each node it accumulates,
  over the 30 words, weight · [word names token l] into a share of every token l, and multiplies the share array into
  the projected tokens. Over the extended reals the two pooled sums are the same number when the projections and the
  weights are real (products then distribute over the finite sums, and the double sum may be taken in either order) and
  every index word names a position below 512 (then exactly one token is named by each word). The first holds because
  the articles, the projection's weights and bias and the leaky unit's slope are finite; the second is the stated
  domain of the node indices. Everything after the pooled sum is the same function on both sides; changes of float
  format and the order of summation are immaterial at the exact values.

  The three frames are the generated ones (the reference's is its run with the result dropped); the idealization of
  the kernel has an empty ledger, so its claim is trivial.
-/
import proofs.«430724_j51539607552910_3_alg».proof.Defs
import proofs.«430724_j51539607552910_3_alg».proof.Proof.Gen.Kernel
import proofs.«430724_j51539607552910_3_alg».proof.Proof.Gen.Kernel.Skeleton
import proofs.«430724_j51539607552910_3_alg».proof.Proof.Gen.Kernel.Launch
import proofs.«430724_j51539607552910_3_alg».proof.Proof.Gen.Kernel.Points
import proofs.«430724_j51539607552910_3_alg».proof.Proof.Gen.Kernel.Frame
import proofs.«430724_j51539607552910_3_alg».proof.Proof.Gen.KernelIdeal
import proofs.«430724_j51539607552910_3_alg».proof.Proof.Gen.KernelIdeal.Skeleton
import proofs.«430724_j51539607552910_3_alg».proof.Proof.Gen.KernelIdeal.Launch
import proofs.«430724_j51539607552910_3_alg».proof.Proof.Gen.KernelIdeal.Points
import proofs.«430724_j51539607552910_3_alg».proof.Proof.Gen.KernelIdeal.Frame
import proofs.«430724_j51539607552910_3_alg».proof.Proof.Gen.ReferenceIdeal
import proofs.«430724_j51539607552910_3_alg».proof.Proof.RefRun
import proofs.«430724_j51539607552910_3_alg».proof.Proof.RefRead
import proofs.«430724_j51539607552910_3_alg».proof.Proof.Gen.Pre_finite_inputs
import proofs.«430724_j51539607552910_3_alg».proof.Proof.Spec
import proofs.«430724_j51539607552910_3_alg».proof.Proof.SpecWhole
import proofs.«430724_j51539607552910_3_alg».proof.Proof.KArray
import proofs.«430724_j51539607552910_3_alg».proof.Proof.RefValue
import proofs.«430724_j51539607552910_3_alg».proof.Proof.PreFacts
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the scores: the kernel's taken token by token, the reference's word by word, equal on finite
    articles and projection with node indices in range. -/
theorem algebraic : Cert.algebraic_KernelIdeal_ReferenceIdeal := by
  intro m ρ m' ρ' hpre hagree
  refine ⟨fun c => Cert.KernelIdeal.Whole.resultArray m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  obtain ⟨h0, h5, h6, h7, h1⟩ := Cert.Pre_finite_inputs.Decode.decoded _ _ _ _ _ _ _ _ _ _ _ _ (hpre c)
  rw [Cert.ReferenceIdeal.ReadP.val_main_v47_eq, a0, a1, a2, a5, a6, a7, a8, a9, a10, a11]
  funext j
  obtain ⟨b, n, rfl⟩ : ∃ (b : Fin 16) (n : Fin 256), j = ix2 b n := ⟨j 0, j 1, eq_ix2 j⟩
  refine (Cert.ReferenceIdeal.RefValue.result_value _ _ _ _ _ _ _ _ _ _ h1 b n).trans ?_
  exact (Cert.NodePool.result_arrangements _ _ _ _ _ _ _ _ _ _ h0 h5 h6 h7 h1 b n).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
